-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x64 : Shape := ⟨2, ![8192, 64]⟩
abbrev S8192x8192 : Shape := ⟨2, ![8192, 8192]⟩
abbrev S128x128 : Shape := ⟨2, ![128, 128]⟩
abbrev S128 : Shape := ⟨1, ![128]⟩
abbrev S128x2 : Shape := ⟨2, ![128, 2]⟩
abbrev S2 : Shape := ⟨1, ![2]⟩
abbrev S_ : Shape := ⟨0, ![]⟩

class Facts : Prop where
  bcast_S_S8192x64 : S_.BroadcastsInDim S8192x64 (![] : Fin 0 → Fin S8192x64.rank)
  reducesTo_S8192x64_S_d0_1 : S8192x64.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg7 : FVec F S2 .f32) (main_v33 : IVec S_ 1) : IVec S_ 1 :=
  let main_v34 : FVec F S2 .f32 := Host.absf main_arg7
  let main_cst_12 : FVec F S_ .f32 := constant S_ .f32 0x7F800000#32
  let main_v35 : FVec F S2 .f32 := broadcastInDim S2 ![] bcast_S_S2 main_cst_12
  let main_v36 : IVec S2 1 := cmpf .olt main_v34 main_v35
  let main_c_13 : IVec S_ 1 := constantI S_ 1 1#1
  let main_v37 : IVec S_ 1 := (fun x v => Host.reduce IntOp.andi x v reducesTo_S2_S_d0 h_S_) main_v36 main_c_13
  let main_v38 : IVec S_ 1 := andi main_v33 main_v37
  main_v38

def fn_part1 {F : FTy → Type} [FloatOps F] (main_arg4 : FVec F S128x128 .f32) (main_arg5 : FVec F S128 .f32) (main_arg6 : FVec F S128x2 .f32) (main_arg7 : FVec F S2 .f32) (main_v13 : IVec S_ 1) (main_v16 : IVec S8192x8192 1) : IVec S_ 1 :=
  let main_c_5 : IVec S_ 1 := constantI S_ 1 1#1
  let main_v17 : IVec S_ 1 := (fun x v => Host.reduce IntOp.andi x v reducesTo_S8192x8192_S_d0_1 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x2 .f32 := Host.absf main_arg6
  let main_cst_10 : FVec F S_ .f32 := constant S_ .f32 0x7F800000#32
  let main_v30 : FVec F S128x2 .f32 := broadcastInDim S128x2 ![] bcast_S_S128x2 main_cst_10
  let main_v31 : IVec S128x2 1 := cmpf .olt main_v29 main_v30
  let main_c_11 : IVec S_ 1 := constantI S_ 1 1#1
  let main_v32 : IVec S_ 1 := (fun x v => Host.reduce IntOp.andi x v reducesTo_S128x2_S_d0_1 h_S_) main_v31 main_c_11
  let main_v33 : IVec S_ 1 := andi main_v28 main_v32
  fn_part2 (F := F) main_arg7 main_v33

def fn {F : FTy → Type} [FloatOps F] (main_arg0 : FVec F S8192x64 .f32) (main_arg1 : FVec F S8192x64 .f32) (main_arg2 : FVec F S8192x8192 .f32) (main_arg3 : FVec F S8192x8192 .f32) (main_arg4 : FVec F S128x128 .f32) (main_arg5 : FVec F S128 .f32) (main_arg6 : FVec F S128x2 .f32) (main_arg7 : FVec F S2 .f32) : IVec S_ 1 :=
  let main_v0 : FVec F S8192x64 .f32 := Host.absf main_arg0
  let main_cst : FVec F S_ .f32 := constant S_ .f32 0x7F800000#32
  let main_v1 : FVec F S8192x64 .f32 := broadcastInDim S8192x64 ![] bcast_S_S8192x64 main_cst
  let main_v2 : IVec S8192x64 1 := cmpf .olt main_v0 main_v1
  let main_c : IVec S_ 1 := constantI S_ 1 1#1
  let main_v3 : IVec S_ 1 := (fun x v => Host.reduce IntOp.andi x v reducesTo_S8192x64_S_d0_1 h_S_) main_v2 main_c
  let main_v4 : FVec F S8192x64 .f32 := Host.absf main_arg1
  let main_cst_0 : FVec F S_ .f32 := constant S_ .f32 0x7F800000#32
  let main_v5 : FVec F S8192x64 .f32 := broadcastInDim S8192x64 ![] bcast_S_S8192x64 main_cst_0
  let main_v6 : IVec S8192x64 1 := cmpf .olt main_v4 main_v5
  let main_c_1 : IVec S_ 1 := constantI S_ 1 1#1
  let main_v7 : IVec S_ 1 := (fun x v => Host.reduce IntOp.andi x v reducesTo_S8192x64_S_d0_1 h_S_) main_v6 main_c_1
  let main_v8 : IVec S_ 1 := andi main_v3 main_v7
  let main_v9 : FVec F S8192x8192 .f32 := Host.absf main_arg2
  let main_cst_2 : FVec F S_ .f32 := constant S_ .f32 0x7F800000#32
  let main_v10 : FVec F S8192x8192 .f32 := broadcastInDim S8192x8192 ![] bcast_S_S8192x8192 main_cst_2
  let main_v11 : IVec S8192x8192 1 := cmpf .olt main_v9 main_v10
  let main_c_3 : IVec S_ 1 := constantI S_ 1 1#1
  let main_v12 : IVec S_ 1 := (fun x v => Host.reduce IntOp.andi x v reducesTo_S8192x8192_S_d0_1 h_S_) main_v11 main_c_3
  let main_v13 : IVec S_ 1 := andi main_v8 main_v12
  let main_v14 : FVec F S8192x8192 .f32 := Host.absf main_arg3
  let main_cst_4 : FVec F S_ .f32 := constant S_ .f32 0x7F800000#32
  let main_v15 : FVec F S8192x8192 .f32 := broadcastInDim S8192x8192 ![] bcast_S_S8192x8192 main_cst_4
  let main_v16 : IVec S8192x8192 1 := cmpf .olt main_v14 main_v15
  fn_part1 (F := F) main_arg4 main_arg5 main_arg6 main_arg7 main_v13 main_v16
-- ==== Kernel.lean ====
abbrev S8192x64 : Shape := ⟨2, ![8192, 64]⟩
abbrev S8192x8192 : Shape := ⟨2, ![8192, 8192]⟩
abbrev S128x128 : Shape := ⟨2, ![128, 128]⟩
abbrev S128 : Shape := ⟨1, ![128]⟩
abbrev S128x2 : Shape := ⟨2, ![128, 2]⟩
abbrev S2 : Shape := ⟨1, ![2]⟩
abbrev S64x128 : Shape := ⟨2, ![64, 128]⟩
abbrev S8192x2 : Shape := ⟨2, ![8192, 2]⟩
abbrev S1024x64 : Shape := ⟨2, ![1024, 64]⟩
abbrev S1024x2 : Shape := ⟨2, ![1024, 2]⟩
abbrev S1024x128 : Shape := ⟨2, ![1024, 128]⟩
abbrev S1x128 : Shape := ⟨2, ![1, 128]⟩
abbrev S1x2 : Shape := ⟨2, ![1, 2]⟩
abbrev S1024 : Shape := ⟨1, ![1024]⟩
abbrev S1024x1 : Shape := ⟨2, ![1024, 1]⟩
abbrev S8192x1 : Shape := ⟨2, ![8192, 1]⟩
abbrev S8192 : Shape := ⟨1, ![8192]⟩
abbrev S1x8192 : Shape := ⟨2, ![1, 8192]⟩
abbrev S1024x1024 : Shape := ⟨2, ![1024, 1024]⟩
abbrev S1x1024 : Shape := ⟨2, ![1, 1024]⟩

abbrev nBuf : Space → Nat
  | .hbm => 18
  | .vmem => 21
  | .smem => 0
  | _ => 0

abbrev bufTy : (tb : Table) → Fin (tcTables nBuf tb) → BufTy
  | .hbm, ⟨0, _⟩ => ⟨S8192x64, .f32⟩
  | .hbm, ⟨1, _⟩ => ⟨S8192x64, .f32⟩
  | .hbm, ⟨2, _⟩ => ⟨S8192x8192, .f32⟩
  | .hbm, ⟨3, _⟩ => ⟨S8192x8192, .f32⟩
  | .hbm, ⟨4, _⟩ => ⟨S128x128, .f32⟩
  | .hbm, ⟨5, _⟩ => ⟨S128, .f32⟩
  | .hbm, ⟨6, _⟩ => ⟨S128x2, .f32⟩
  | .hbm, ⟨7, _⟩ => ⟨S2, .f32⟩
  | .hbm, ⟨8, _⟩ => ⟨S64x128, .f32⟩
  | .hbm, ⟨9, _⟩ => ⟨S64x128, .f32⟩
  | .hbm, ⟨10, _⟩ => ⟨S8192x2, .f32⟩
  | .hbm, ⟨11, _⟩ => ⟨S8192x1, .f32⟩
  | .hbm, ⟨12, _⟩ => ⟨S8192, .f32⟩
  | .hbm, ⟨13, _⟩ => ⟨S1x8192, .f32⟩
  | .hbm, ⟨14, _⟩ => ⟨S8192x1, .f32⟩
  | .hbm, ⟨15, _⟩ => ⟨S8192, .f32⟩
  | .hbm, ⟨16, _⟩ => ⟨S1x8192, .f32⟩
  | .hbm, ⟨17, _⟩ => ⟨S8192x8192, .f32⟩
  | .local _ .vmem, ⟨0, _⟩ => ⟨S1024x64, .f32⟩
  | .local _ .vmem, ⟨1, _⟩ => ⟨S1024x64, .f32⟩
  | .local _ .vmem, ⟨2, _⟩ => ⟨S1024x64, .f32⟩
  | .local _ .vmem, ⟨3, _⟩ => ⟨S1024x64, .f32⟩
  | .local _ .vmem, ⟨4, _⟩ => ⟨S64x128, .f32⟩
  | .local _ .vmem, ⟨5, _⟩ => ⟨S64x128, .f32⟩
  | .local _ .vmem, ⟨6, _⟩ => ⟨S128, .f32⟩
  | .local _ .vmem, ⟨7, _⟩ => ⟨S128x2, .f32⟩
  | .local _ .vmem, ⟨8, _⟩ => ⟨S2, .f32⟩
  | .local _ .vmem, ⟨9, _⟩ => ⟨S1024x2, .f32⟩
  | .local _ .vmem, ⟨10, _⟩ => ⟨S1024x2, .f32⟩
  | .local _ .vmem, ⟨11, _⟩ => ⟨S1024x1024, .f32⟩
  | .local _ .vmem, ⟨12, _⟩ => ⟨S1024x1024, .f32⟩
  | .local _ .vmem, ⟨13, _⟩ => ⟨S1024x1024, .f32⟩
  | .local _ .vmem, ⟨14, _⟩ => ⟨S1024x1024, .f32⟩
  | .local _ .vmem, ⟨15, _⟩ => ⟨S1x1024, .f32⟩
  | .local _ .vmem, ⟨16, _⟩ => ⟨S1x1024, .f32⟩
  | .local _ .vmem, ⟨17, _⟩ => ⟨S1x1024, .f32⟩
  | .local _ .vmem, ⟨18, _⟩ => ⟨S1x1024, .f32⟩
  | .local _ .vmem, ⟨19, _⟩ => ⟨S1024x1024, .f32⟩
  | .local _ .vmem, ⟨20, _⟩ => ⟨S1024x1024, .f32⟩
  | _, _ => ⟨S8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_stg4_0 : Ref sig .tc := ⟨.vmem, 19, rfl⟩
abbrev cc1_stg4_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem3_1 : DmaSem sig := 18
abbrev cc1_sem4_0 : DmaSem sig := 19
abbrev cc1_sem4_1 : DmaSem sig := 20

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x2 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x2 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨2, ![8, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1024x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S1024x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

class Facts₀ : Prop where
  slices_S128x128_S64x128_0_0 : S128x128.Slices ![0, 0] S64x128
  slices_S128x128_S64x128_64_0 : S128x128.Slices ![64, 0] S64x128
  inb_S1024x64_S1024x64_0_0 : ∀ a, (![0, 0] : Fin 2 → Nat) a + S1024x64.size a ≤ S1024x64.size a
  h_S1024x64 : 0 < S1024x64.numel
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S128_S128_0 : ∀ a, (![0] : Fin 1 → Nat) a + S128.size a ≤ S128.size a
  h_S128 : 0 < S128.numel
  shapeCasts_S128_S1x128 : S128.ShapeCasts S1x128
  broadcasts_S1x128_S1024x128 : S1x128.Broadcasts S1024x128
  inb_S128x2_S128x2_0_0 : ∀ a, (![0, 0] : Fin 2 → Nat) a + S128x2.size a ≤ S128x2.size a
  h_S128x2 : 0 < S128x2.numel
  inb_S2_S2_0 : ∀ a, (![0] : Fin 1 → Nat) a + S2.size a ≤ S2.size a
  h_S2 : 0 < S2.numel
  shapeCasts_S2_S1x2 : S2.ShapeCasts S1x2
  broadcasts_S1x2_S1024x2 : S1x2.Broadcasts S1024x2
  reduces_S1024x2_S1024 : S1024x2.Reduces [1] S1024
  shapeCasts_S1024_S1024x1 : S1024.ShapeCasts S1024x1
  broadcasts_S1024x1_S1024x2 : S1024x1.Broadcasts S1024x2
  inb_S1024x2_S1024x2_0_0 : ∀ a, (![0, 0] : Fin 2 → Nat) a + S1024x2.size a ≤ S1024x2.size a
  h_S1024x2 : 0 < S1024x2.numel
  slices_S8192x2_S8192x1_0_0 : S8192x2.Slices ![0, 0] S8192x1
  shapeCasts_S8192x1_S8192 : S8192x1.ShapeCasts S8192
  shapeCasts_S8192_S1x8192 : S8192.ShapeCasts S1x8192
  slices_S8192x2_S8192x1_0_1 : S8192x2.Slices ![0, 1] S8192x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S1024x1024_S1024x1024_0_0 : ∀ a, (![0, 0] : Fin 2 → Nat) a + S1024x1024.size a ≤ S1024x1024.size a
  h_S1024x1024 : 0 < S1024x1024.numel
  broadcasts_S1x1024_S1024x1024 : S1x1024.Broadcasts S1024x1024
  dot_S1024x64_S64x128_S1024x128_1_0_0_1_n_n_wf : DotDims.WF S1024x64 S64x128 S1024x128 [1] [0] [0] [1] [] []
  dot_S1024x128_S128x2_S1024x2_1_0_0_1_n_n_wf : DotDims.WF S1024x128 S128x2 S1024x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x64.size a ≤ S8192x64.size a
  hwx0_0 : ∀ i : grid0.Coords, EltTy.bits .f32 = 32 ∨ (Rect.block (s := S8192x64) S1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x64.size a ≤ S8192x64.size a
  hwx0_1 : ∀ i : grid0.Coords, EltTy.bits .f32 = 32 ∨ (Rect.block (s := S8192x64) S1024x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .f32 = 32 ∨ (Rect.block (s := S64x128) S64x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x2.size a ≤ S128x2.size a
  hwx0_5 : ∀ i : grid0.Coords, EltTy.bits .f32 = 32 ∨ (Rect.block (s := S128x2) S128x2.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S2.size a ≤ S2.size a
  hwx0_6 : ∀ i : grid0.Coords, EltTy.bits .f32 = 32 ∨ (Rect.block (s := S2) S2.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x2.size a ≤ S8192x2.size a
  hwx0_7 : ∀ i : grid0.Coords, EltTy.bits .f32 = 32 ∨ (Rect.block (s := S8192x2) S1024x2.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x8192.size a
  hwx1_0 : ∀ i : grid1.Coords, EltTy.bits .f32 = 32 ∨ (Rect.block (s := S8192x8192) S1024x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S8192x8192.size a
  hwx1_1 : ∀ i : grid1.Coords, EltTy.bits .f32 = 32 ∨ (Rect.block (s := S8192x8192) S1024x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x8192.size a
  hwx1_2 : ∀ i : grid1.Coords, EltTy.bits .f32 = 32 ∨ (Rect.block (s := S1x8192) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024.size a ≤ S1x8192.size a
  hwx1_3 : ∀ i : grid1.Coords, EltTy.bits .f32 = 32 ∨ (Rect.block (s := S1x8192) S1x1024.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x1024.size a ≤ S8192x8192.size a
  hwx1_4 : ∀ i : grid1.Coords, EltTy.bits .f32 = 32 ∨ (Rect.block (s := S8192x8192) S1024x1024.size (cc1_transform_4 i) (hinb1_4 i)).WholeWords (EltTy.packing .f32)

variable [Facts₀]

def dot_S1024x64_S64x128_S1024x128_1_0_0_1_n_n : DotDims S1024x64 S64x128 S1024x128 where
  lhsContracting := [1]
  rhsContracting := [0]
  lhsNonContracting := [0]
  rhsNonContracting := [1]
  lhsBatch := []
  rhsBatch := []
  wf := dot_S1024x64_S64x128_S1024x128_1_0_0_1_n_n_wf
def dot_S1024x128_S128x2_S1024x2_1_0_0_1_n_n : DotDims S1024x128 S128x2 S1024x2 where
  lhsContracting := [1]
  rhsContracting := [0]
  lhsNonContracting := [0]
  rhsNonContracting := [1]
  lhsBatch := []
  rhsBatch := []
  wf := dot_S1024x128_S128x2_S1024x2_1_0_0_1_n_n_wf

abbrev win0_0 : Pipeline.Window sig grid0 :=
  Pipeline.Window.ofSpec (Memref.whole main_arg0) S1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S128x2.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S2.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2) S1024x2.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_arg2) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S1x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v8) S1x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v9) S1024x1024.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S8192x64 : Shape := ⟨2, ![8192, 64]⟩
abbrev S8192x8192 : Shape := ⟨2, ![8192, 8192]⟩
abbrev S128x128 : Shape := ⟨2, ![128, 128]⟩
abbrev S128 : Shape := ⟨1, ![128]⟩
abbrev S128x2 : Shape := ⟨2, ![128, 2]⟩
abbrev S2 : Shape := ⟨1, ![2]⟩
abbrev S8192x128 : Shape := ⟨2, ![8192, 128]⟩
abbrev S1x128 : Shape := ⟨2, ![1, 128]⟩
abbrev S_ : Shape := ⟨0, ![]⟩
abbrev S8192x2 : Shape := ⟨2, ![8192, 2]⟩
abbrev S1x2 : Shape := ⟨2, ![1, 2]⟩
abbrev S8192 : Shape := ⟨1, ![8192]⟩
abbrev S8192x1 : Shape := ⟨2, ![8192, 1]⟩
abbrev S1x8192 : Shape := ⟨2, ![1, 8192]⟩

abbrev nBuf : Space → Nat
  | .hbm => 45
  | .vmem => 0
  | .smem => 0
  | _ => 0

abbrev bufTy : (tb : Table) → Fin (tcTables nBuf tb) → BufTy
  | .hbm, ⟨0, _⟩ => ⟨S8192x64, .f32⟩
  | .hbm, ⟨1, _⟩ => ⟨S8192x64, .f32⟩
  | .hbm, ⟨2, _⟩ => ⟨S8192x8192, .f32⟩
  | .hbm, ⟨3, _⟩ => ⟨S8192x8192, .f32⟩
  | .hbm, ⟨4, _⟩ => ⟨S128x128, .f32⟩
  | .hbm, ⟨5, _⟩ => ⟨S128, .f32⟩
  | .hbm, ⟨6, _⟩ => ⟨S128x2, .f32⟩
  | .hbm, ⟨7, _⟩ => ⟨S2, .f32⟩
  | .hbm, ⟨8, _⟩ => ⟨S8192x128, .f32⟩
  | .hbm, ⟨9, _⟩ => ⟨S8192x128, .f32⟩
  | .hbm, ⟨10, _⟩ => ⟨S1x128, .f32⟩
  | .hbm, ⟨11, _⟩ => ⟨S8192x128, .f32⟩
  | .hbm, ⟨12, _⟩ => ⟨S8192x128, .f32⟩
  | .hbm, ⟨13, _⟩ => ⟨S_, .f32⟩
  | .hbm, ⟨14, _⟩ => ⟨S8192x128, .f32⟩
  | .hbm, ⟨15, _⟩ => ⟨S8192x128, .f32⟩
  | .hbm, ⟨16, _⟩ => ⟨S8192x2, .f32⟩
  | .hbm, ⟨17, _⟩ => ⟨S1x2, .f32⟩
  | .hbm, ⟨18, _⟩ => ⟨S8192x2, .f32⟩
  | .hbm, ⟨19, _⟩ => ⟨S8192x2, .f32⟩
  | .hbm, ⟨20, _⟩ => ⟨S_, .f32⟩
  | .hbm, ⟨21, _⟩ => ⟨S8192, .f32⟩
  | .hbm, ⟨22, _⟩ => ⟨S_, .f32⟩
  | .hbm, ⟨23, _⟩ => ⟨S8192, .f32⟩
  | .hbm, ⟨24, _⟩ => ⟨S8192, .f32⟩
  | .hbm, ⟨25, _⟩ => ⟨S8192x1, .f32⟩
  | .hbm, ⟨26, _⟩ => ⟨S8192x2, .f32⟩
  | .hbm, ⟨27, _⟩ => ⟨S8192x2, .f32⟩
  | .hbm, ⟨28, _⟩ => ⟨S8192x2, .f32⟩
  | .hbm, ⟨29, _⟩ => ⟨S_, .f32⟩
  | .hbm, ⟨30, _⟩ => ⟨S8192, .f32⟩
  | .hbm, ⟨31, _⟩ => ⟨S8192x1, .f32⟩
  | .hbm, ⟨32, _⟩ => ⟨S8192x2, .f32⟩
  | .hbm, ⟨33, _⟩ => ⟨S8192x2, .f32⟩
  | .hbm, ⟨34, _⟩ => ⟨S8192x1, .f32⟩
  | .hbm, ⟨35, _⟩ => ⟨S8192, .f32⟩
  | .hbm, ⟨36, _⟩ => ⟨S8192x1, .f32⟩
  | .hbm, ⟨37, _⟩ => ⟨S8192, .f32⟩
  | .hbm, ⟨38, _⟩ => ⟨S1x8192, .f32⟩
  | .hbm, ⟨39, _⟩ => ⟨S8192x8192, .f32⟩
  | .hbm, ⟨40, _⟩ => ⟨S8192x8192, .f32⟩
  | .hbm, ⟨41, _⟩ => ⟨S1x8192, .f32⟩
  | .hbm, ⟨42, _⟩ => ⟨S8192x8192, .f32⟩
  | .hbm, ⟨43, _⟩ => ⟨S8192x8192, .f32⟩
  | .hbm, ⟨44, _⟩ => ⟨S8192x8192, .f32⟩
  | _, _ => ⟨S8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call0_cst : Ref sig .tc := ⟨.hbm, 13, rfl⟩
abbrev main_call0_v0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_cst_0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_1 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩

abbrev nD : Nat := 1
abbrev τ : Topo := Topo.v7x

variable {F : FTy → Type} [FloatOps F]

class Facts₀ : Prop where
  concatenates_S8192x64_S8192x64_S8192x128_d1 : Shape.Concatenates [S8192x64, S8192x64] S8192x128 1
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  bcast_S_S8192x128 : S_.BroadcastsInDim S8192x128 (![] : Fin 0 → Fin S8192x128.rank)
  bcast_S2_S1x2_1 : S2.BroadcastsInDim S1x2 (![1] : Fin 1 → Fin S1x2.rank)
  bcast_S1x2_S8192x2_0_1 : S1x2.BroadcastsInDim S8192x2 (![0, 1] : Fin 2 → Fin S8192x2.rank)
  reducesTo_S8192x2_S8192_d1 : S8192x2.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x2_0_1 : S8192x1.BroadcastsInDim S8192x2 (![0, 1] : Fin 2 → Fin S8192x2.rank)
  slices_S8192x2_S8192x1_0_0 : S8192x2.Slices ![0, 0] S8192x1
  shapeCasts_S8192x1_S8192 : S8192x1.ShapeCasts S8192
  slices_S8192x2_S8192x1_0_1 : S8192x2.Slices ![0, 1] S8192x1
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  dot_S8192x128_S128x128_S8192x128_1_0_0_1_n_n_wf : DotDims.WF S8192x128 S128x128 S8192x128 [1] [0] [0] [1] [] []
  dot_S8192x128_S128x2_S8192x2_1_0_0_1_n_n_wf : DotDims.WF S8192x128 S128x2 S8192x2 [1] [0] [0] [1] [] []

variable [Facts₀]

def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S8192x128_S128x2_S8192x2_1_0_0_1_n_n : DotDims S8192x128 S128x2 S8192x2 where
  lhsContracting := [1]
  rhsContracting := [0]
  lhsNonContracting := [0]
  rhsNonContracting := [1]
  lhsBatch := []
  rhsBatch := []
  wf := dot_S8192x128_S128x2_S8192x2_1_0_0_1_n_n_wf

class Facts : Prop extends Facts₀ where

variable [Facts]
-- ==== Proof.MergeValue.lean ====
/-
  The second region's output array after its run, as one function of the arrays the region is entered with.

  The region's grid is 8 × 8; at point `(bi, bj)` the body loads block `(bi, bj)` of the two `[8192, 8192]` matrices and
  block `(0, bj)` of the two `[1, 8192]` weight rows, and stores into block `(bi, bj)` of the output the entrywise
  `w (0, q) · A (p, q) + w' (0, q) · B (p, q)`. A block's entry `(p, q)` is the array's entry `(bi · 1024 + p, bj · 1024 + q)`, a row
  block's entry `(0, q)` the row's entry `(0, bj · 1024 + q)`: so what a point writes back is its block of ONE function of the
  four arrays, `mergeG`, and the 64 blocks tile the output. Stated at any values `F` and any entry contents `V`.
-/
import proofs.«121366_j27092653703861_1_alg».proof.Proof.Gen.KernelIdeal.Frame
import Idealize.ShloMosaic.Lib.Pipeline.Value
import Idealize.ShloMosaic.Lib.ValueIdx
import Idealize.ShloMosaic.Lib.ValueLayout

set_option maxRecDepth 16384

noncomputable section

namespace Cert.KernelIdeal.Merge

open Cert.KernelIdeal Cert.KernelIdeal.Gen Idealize.ShloMosaic Idealize.ShloMosaic.TcCoe Idealize.SL.Sem
open Idealize.ShloMosaic.Pipeline (Dat)
open Idealize.ShloMosaic.ValueIdx

variable {F : FTy → Type} [FloatOps F]
variable (V : (c : Dev nD) → (b : Ref sig .tc) → Buf (Elt F) ((c : Thread nD τ).loc b))

theorem origin2 : (![0, 0] : Fin 2 → Nat) = fun _ => 0 := funext fun a => by fin_cases a <;> rfl

/-- The merged matrix: entry `(i, j)` is column `j`'s two weights times the two matrices' entries there, added. -/
abbrev mergeG (A B : S8192x8192.Idx → Elt F .f32) (wi wt : S1x8192.Idx → Elt F .f32) : S8192x8192.Idx → Elt F .f32 :=
  fun i => FloatOps.addf (FloatOps.mulf (wi (ix2 (0 : Fin 1) (i 1))) (A i)) (FloatOps.mulf (wt (ix2 (0 : Fin 1) (i 1))) (B i))

/-- The body's stored value at entry `(p, q)` of a block: the weight rows are read at `(0, q)` (a row spread over the 1024
    rows of the block), the matrices at `(p, q)`. -/
theorem stored_apply (v0 v5 : Vec F S1x1024 .f32) (v2 v7 : Vec F S1024x1024 .f32) (p q : Fin 1024) :
    k1_pay1 v0 v2 v5 v7 (ix2 p q)
      = FloatOps.addf (FloatOps.mulf (v0 (ix2 (0 : Fin 1) q)) (v2 (ix2 p q))) (FloatOps.mulf (v5 (ix2 (0 : Fin 1) q)) (v7 (ix2 p q))) := by
  unfold k1_pay1
  show FloatOps.addf (FloatOps.mulf (broadcastTo S1024x1024 (shapeCast S1x1024 v0 shapeCasts_S1x1024_S1x1024) broadcasts_S1x1024_S1024x1024 (ix2 p q)) (v2 (ix2 p q)))
      (FloatOps.mulf (broadcastTo S1024x1024 (shapeCast S1x1024 v5 shapeCasts_S1x1024_S1x1024) broadcasts_S1x1024_S1024x1024 (ix2 p q)) (v7 (ix2 p q))) = _
  rw [shapeCast_self, shapeCast_self, broadcastTo_1b_ab_apply, broadcastTo_1b_ab_apply]

/-- The printed index maps over the 64 grid points: the two matrices' windows move with the output's, the two weight
    rows' windows stay on block row 0 and move with the output's block column; the output's block indices are below 8. -/
theorem index_facts : ∀ t : Fin cfg1.N, win1_0.index t (0 : Fin 2) = win1_4.index t (0 : Fin 2)
    ∧ win1_0.index t (1 : Fin 2) = win1_4.index t (1 : Fin 2)
    ∧ win1_1.index t (0 : Fin 2) = win1_4.index t (0 : Fin 2)
    ∧ win1_1.index t (1 : Fin 2) = win1_4.index t (1 : Fin 2)
    ∧ win1_2.index t (0 : Fin 2) = 0
    ∧ win1_2.index t (1 : Fin 2) = win1_4.index t (1 : Fin 2)
    ∧ win1_3.index t (0 : Fin 2) = 0
    ∧ win1_3.index t (1 : Fin 2) = win1_4.index t (1 : Fin 2)
    ∧ win1_4.index t (0 : Fin 2) ≤ 7 ∧ win1_4.index t (1 : Fin 2) ≤ 7 :=
  (by decide +kernel : ∀ t : Fin grid1.N, _)

/-- Every block of the output is some point's. -/
theorem index_onto : ∀ (q0 : Fin 8) (q1 : Fin 8), ∃ t : Fin cfg1.N, win1_4.index t = ![q0.val, q1.val] :=
  (by decide +kernel : ∀ (q0 : Fin 8) (q1 : Fin 8), ∃ t : Fin grid1.N, win1_4.index t = ![q0.val, q1.val])

/-- What point `t` writes back is block `t` of `mergeG` of the arrays as the region finds them. -/
theorem flushed_eq (c : Dev nD) (t : Fin cfg1.N) :
    (dat1 V c).flushed 4 t = ((cfg1.win 4).blk t).view.read (Elt F) (mergeG (V c main_arg2) (V c main_arg3) (V c main_v5) (V c main_v8)) := by
  show (cfg1.win 4).cut (grid1.coords t) ((dat1 V c).after 4 t) = _
  rw [after1_4]
  unfold out1_4
  rw [View.canon_unit_zero origin2]
  simp only [View.ld_unit_zero (S := S1024x1024) origin2, View.ld_unit_zero (S := S1x1024) origin2]
  obtain ⟨e0, e1, e2, e3, e4, e5, e6, e7, e8, e9⟩ := index_facts t
  funext j
  obtain ⟨p, q, rfl⟩ : ∃ (p q : Fin 1024), j = ix2 p q := ⟨j 0, j 1, eq_ix2 j⟩
  show k1_pay1 (iblk1 V c 2 t) (iblk1 V c 0 t) (iblk1 V c 3 t) (iblk1 V c 1 t) (ix2 p q) = _
  refine (stored_apply (F := F) (iblk1 V c 2 t) (iblk1 V c 3 t) (iblk1 V c 0 t) (iblk1 V c 1 t) p q).trans ?_
  show FloatOps.addf (FloatOps.mulf (V c main_v5 (((cfg1.win 2).blk t).view.emb (ix2 (0 : Fin 1) q))) (V c main_arg2 (((cfg1.win 0).blk t).view.emb (ix2 p q))))
      (FloatOps.mulf (V c main_v8 (((cfg1.win 3).blk t).view.emb (ix2 (0 : Fin 1) q))) (V c main_arg3 (((cfg1.win 1).blk t).view.emb (ix2 p q))))
    = FloatOps.addf (FloatOps.mulf (V c main_v5 (ix2 (0 : Fin 1) ((((cfg1.win 4).blk t).view.emb (ix2 p q)) 1))) (V c main_arg2 (((cfg1.win 4).blk t).view.emb (ix2 p q))))
      (FloatOps.mulf (V c main_v8 (ix2 (0 : Fin 1) ((((cfg1.win 4).blk t).view.emb (ix2 p q)) 1))) (V c main_arg3 (((cfg1.win 4).blk t).view.emb (ix2 p q))))
  have hp : p.val < 1024 := p.isLt
  have hq : q.val < 1024 := q.isLt
  have h0 : ((cfg1.win 0).blk t).view.emb (ix2 p q) = ((cfg1.win 4).blk t).view.emb (ix2 p q) := by
    funext a; apply Fin.ext
    match a with
    | ⟨0, _⟩ => show win1_0.index t (0 : Fin 2) * 1024 + 1 * p.val = win1_4.index t (0 : Fin 2) * 1024 + 1 * p.val; omega
    | ⟨1, _⟩ => show win1_0.index t (1 : Fin 2) * 1024 + 1 * q.val = win1_4.index t (1 : Fin 2) * 1024 + 1 * q.val; omega
  have h1 : ((cfg1.win 1).blk t).view.emb (ix2 p q) = ((cfg1.win 4).blk t).view.emb (ix2 p q) := by
    funext a; apply Fin.ext
    match a with
    | ⟨0, _⟩ => show win1_1.index t (0 : Fin 2) * 1024 + 1 * p.val = win1_4.index t (0 : Fin 2) * 1024 + 1 * p.val; omega
    | ⟨1, _⟩ => show win1_1.index t (1 : Fin 2) * 1024 + 1 * q.val = win1_4.index t (1 : Fin 2) * 1024 + 1 * q.val; omega
  have h2 : ((cfg1.win 2).blk t).view.emb (ix2 (0 : Fin 1) q) = ix2 (0 : Fin 1) ((((cfg1.win 4).blk t).view.emb (ix2 p q)) 1) := by
    funext a; apply Fin.ext
    match a with
    | ⟨0, _⟩ => show win1_2.index t (0 : Fin 2) * 1 + 1 * 0 = 0; omega
    | ⟨1, _⟩ => show win1_2.index t (1 : Fin 2) * 1024 + 1 * q.val = win1_4.index t (1 : Fin 2) * 1024 + 1 * q.val; omega
  have h3 : ((cfg1.win 3).blk t).view.emb (ix2 (0 : Fin 1) q) = ix2 (0 : Fin 1) ((((cfg1.win 4).blk t).view.emb (ix2 p q)) 1) := by
    funext a; apply Fin.ext
    match a with
    | ⟨0, _⟩ => show win1_3.index t (0 : Fin 2) * 1 + 1 * 0 = 0; omega
    | ⟨1, _⟩ => show win1_3.index t (1 : Fin 2) * 1024 + 1 * q.val = win1_4.index t (1 : Fin 2) * 1024 + 1 * q.val; omega
  rw [h0, h1, h2, h3]
  rfl

/-- An index of the output is in point `t`'s block iff each coordinate is in the block's range on its axis. -/
theorem mem_block (t : Fin cfg1.N) (i : S8192x8192.Idx) :
    i ∈ ((cfg1.win 4).blk t).view.set ↔ ∀ a : Fin 2, win1_4.index t a * S1024x1024.size a ≤ (i a).val ∧ (i a).val < win1_4.index t a * S1024x1024.size a + S1024x1024.size a := by
  show i ∈ ((View.whole main_v9).slice (win1_4.rect t)).set ↔ _
  rw [View.set_slice_whole, Rect.mem_set_unit]
  exact Iff.rfl

/-- The 64 blocks cover the output: entry `(r, s)` lies in the block of the point with block indices `(r / 1024, s / 1024)`. -/
theorem cover (i : S8192x8192.Idx) : ∃ t : Fin cfg1.N, (cfg1.win 4).flush t = true ∧ i ∈ ((cfg1.win 4).blk t).view.set := by
  have hi0 : (i 0).val < 8192 := (i 0).isLt
  have hi1 : (i 1).val < 8192 := (i 1).isLt
  obtain ⟨t, ht⟩ := index_onto ⟨(i 0).val / 1024, by omega⟩ ⟨(i 1).val / 1024, by omega⟩
  have q0 : win1_4.index t (0 : Fin 2) = (i 0).val / 1024 := congrFun ht 0
  have q1 : win1_4.index t (1 : Fin 2) = (i 1).val / 1024 := congrFun ht 1
  refine ⟨t, flush1_4 t, ?_⟩
  rw [mem_block]
  intro a
  match a with
  | ⟨0, _⟩ => show win1_4.index t (0 : Fin 2) * 1024 ≤ (i 0).val ∧ (i 0).val < win1_4.index t (0 : Fin 2) * 1024 + 1024; omega
  | ⟨1, _⟩ => show win1_4.index t (1 : Fin 2) * 1024 ≤ (i 1).val ∧ (i 1).val < win1_4.index t (1 : Fin 2) * 1024 + 1024; omega

/-- The output array after the region's run is `mergeG` of the four arrays the region is entered with. -/
theorem final (c : Dev nD) :
    (dat1 V c).arrAt 4 cfg1.N = mergeG (V c main_arg2) (V c main_arg3) (V c main_v5) (V c main_v8) :=
  (dat1 V c).arrAt_eq_of_cover 4 _ (fun t _ => flushed_eq V c t) cover

end Cert.KernelIdeal.Merge

end
-- ==== Proof.Spec.lean ====
/-
  What the program computes, as one function of its eight argument arrays, index by index, on the extended reals.

  A gate: each of the 8192 items has an image row `x` and a text row `y` of 64 numbers. Its hidden layer is
  `h j = max (∑ k, x k · W1 (k, j) + ∑ k, y k · W1 (64 + k, j) + b1 j) 0` for the 128 hidden units, its two logits
  `l a = ∑ j, h j · W2 (j, a) + b2 a`, and its two weights the softmax of the logits taken the numerically shifted
  way: with `μ = max (-∞) (max over a of l a)`, weight `a` is `exp (l a - μ) / ∑ a', exp (l a' - μ)`.
  A merge: entry `(i, j)` of the result is `weight₀ (item j) · A (i, j) + weight₁ (item j) · B (i, j)`: the weights of the
  COLUMN's item scale the two adjacency matrices.

  The functions are stated on rows (`Fin 64 → EReal`) so that a block of rows and the whole array read the same term.
  The one law used between the two programs is that a sum over 128 joined columns is the sum over the first 64 plus the
  sum over the last 64 (`sum_join`): addition of extended reals is commutative and associative, so no finiteness is needed.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- The word of `-∞` and of `0` at f32, as the programs print them. -/
abbrev negInf : EReal := Ideal.ofBits .f32 0xFF800000#32
abbrev zero32 : EReal := Ideal.ofBits .f32 0x00000000#32

/-- Hidden unit `j` of an item with image row `x` and text row `y`: the two halves of the first layer's weights applied
    to the two rows, the bias added, the result clipped below at the word of zero. -/
def hidden (x y : Fin 64 → EReal) (wa wb : (⟨2, ![64, 128]⟩ : Shape).Idx → EReal) (b1 : (⟨1, ![128]⟩ : Shape).Idx → EReal)
    (j : Fin 128) : EReal :=
  max ((∑ k : Fin 64, x k * wa (ix2 k j)) + (∑ k : Fin 64, y k * wb (ix2 k j)) + b1 (ix1 j)) zero32

/-- Logit `a` of the item. -/
def logit (x y : Fin 64 → EReal) (wa wb : (⟨2, ![64, 128]⟩ : Shape).Idx → EReal) (b1 : (⟨1, ![128]⟩ : Shape).Idx → EReal)
    (w2 : (⟨2, ![128, 2]⟩ : Shape).Idx → EReal) (b2 : (⟨1, ![2]⟩ : Shape).Idx → EReal) (a : Fin 2) : EReal :=
  (∑ j : Fin 128, hidden x y wa wb b1 j * w2 (ix2 j a)) + b2 (ix1 a)

/-- The shift of a softmax over two logits: their maximum, folded from `-∞` and capped below by `-∞` once more. -/
def shift (l : Fin 2 → EReal) : EReal := max negInf ((Finset.univ : Finset (Fin 2)).fold max negInf l)

/-- The softmax of two logits, shifted. -/
def softmax2 (l : Fin 2 → EReal) (a : Fin 2) : EReal :=
  Ideal.div (Ideal.exp (l a - shift l)) (∑ k : Fin 2, Ideal.exp (l k - shift l))

/-- The two modality weights of an item. -/
def gate (x y : Fin 64 → EReal) (wa wb : (⟨2, ![64, 128]⟩ : Shape).Idx → EReal) (b1 : (⟨1, ![128]⟩ : Shape).Idx → EReal)
    (w2 : (⟨2, ![128, 2]⟩ : Shape).Idx → EReal) (b2 : (⟨1, ![2]⟩ : Shape).Idx → EReal) (a : Fin 2) : EReal :=
  softmax2 (logit x y wa wb b1 w2 b2) a

/-- The gate as an array `[8192, 2]`: item `r`'s rows are rows `r` of the two embedding arrays. -/
def gateArr (X Y : (⟨2, ![8192, 64]⟩ : Shape).Idx → EReal) (wa wb : (⟨2, ![64, 128]⟩ : Shape).Idx → EReal)
    (b1 : (⟨1, ![128]⟩ : Shape).Idx → EReal) (w2 : (⟨2, ![128, 2]⟩ : Shape).Idx → EReal) (b2 : (⟨1, ![2]⟩ : Shape).Idx → EReal) :
    (⟨2, ![8192, 2]⟩ : Shape).Idx → EReal :=
  fun i => gate (fun k => X (ix2 (i 0) k)) (fun k => Y (ix2 (i 0) k)) wa wb b1 w2 b2 (i 1)

/-- The merge from two rows of weights `[1, 8192]`: column `j`'s weights scale the two matrices' entries in column `j`. -/
def mergeArr (A B : (⟨2, ![8192, 8192]⟩ : Shape).Idx → EReal) (wi wt : (⟨2, ![1, 8192]⟩ : Shape).Idx → EReal) :
    (⟨2, ![8192, 8192]⟩ : Shape).Idx → EReal :=
  fun i => wi (ix2 (0 : Fin 1) (i 1)) * A i + wt (ix2 (0 : Fin 1) (i 1)) * B i

/-- The upper and the lower 64 rows of the first layer's `[128, 128]` weight matrix. -/
def upper (W1 : (⟨2, ![128, 128]⟩ : Shape).Idx → EReal) : (⟨2, ![64, 128]⟩ : Shape).Idx → EReal :=
  fun i => W1 (ix2 ⟨(i 0).val, by have := (i 0).isLt; simp at this; omega⟩ (i 1))
def lower (W1 : (⟨2, ![128, 128]⟩ : Shape).Idx → EReal) : (⟨2, ![64, 128]⟩ : Shape).Idx → EReal :=
  fun i => W1 (ix2 ⟨64 + (i 0).val, by have := (i 0).isLt; simp at this; omega⟩ (i 1))

/-- The whole program: the merge of the two adjacency matrices by the gate's two columns laid out as rows. -/
def result (X Y : (⟨2, ![8192, 64]⟩ : Shape).Idx → EReal) (A B : (⟨2, ![8192, 8192]⟩ : Shape).Idx → EReal)
    (W1 : (⟨2, ![128, 128]⟩ : Shape).Idx → EReal) (b1 : (⟨1, ![128]⟩ : Shape).Idx → EReal)
    (w2 : (⟨2, ![128, 2]⟩ : Shape).Idx → EReal) (b2 : (⟨1, ![2]⟩ : Shape).Idx → EReal) :
    (⟨2, ![8192, 8192]⟩ : Shape).Idx → EReal :=
  mergeArr A B (fun i => gateArr X Y (upper W1) (lower W1) b1 w2 b2 (ix2 (i 1) (0 : Fin 2)))
    (fun i => gateArr X Y (upper W1) (lower W1) b1 w2 b2 (ix2 (i 1) (1 : Fin 2)))

/-- A sum over 128 joined columns is the sum over the first 64 plus the sum over the last 64. -/
theorem sum_join (f : Fin 128 → EReal) :
    ∑ k : Fin 128, f k = (∑ k : Fin 64, f ⟨k.val, by omega⟩) + ∑ k : Fin 64, f ⟨64 + k.val, by omega⟩ := by
  have h := Fin.sum_univ_add (a := 64) (b := 64) (fun k : Fin (64 + 64) => f ⟨k.val, by have := k.isLt; omega⟩)
  refine Eq.trans ?_ (h.trans ?_)
  · rfl
  · rfl

end Cert.Spec

end
-- ==== Proof.LibColumn.lean ====
/-
  Column vectors read at an index given by coordinates.

  A sum or maximum taken with `keepdims` leaves a column `[a, 1]`, which is then spread over the lanes. These three
  readings complete the library's list of small layout forms (leading unit axes, one row spread over many rows)
  with the column ones: a vector `[a]` viewed as a column, a row `[1, a]` viewed as a column, and a column `[a, 1]`
  spread to `[a, b]`. Each is the general lemma for its operation with the coordinate arithmetic done: a shape cast
  keeps the row-major position, and a broadcast reads coordinate 0 on a unit axis.
-/
import Idealize.ShloMosaic.Lib.ValueLayout

namespace Cert.LibColumn

open Idealize.ShloMosaic Idealize.ShloMosaic.ValueIdx

variable {α : Type}

/-- An `[a]` vector cast to an `[a, 1]` column reads, at `(i, u)`, the vector at `i`, whatever the unit coordinate `u`:
    both positions are `i` in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A `[1, a]` row cast to an `[a, 1]` column reads, at `(i, u)`, the row at `(0, i)`. -/
theorem shapeCast_1a_a1_apply {a : ℕ} (x : (⟨2, ![1, a]⟩ : Shape).Idx → α) (h : (⟨2, ![1, a]⟩ : Shape).ShapeCasts ⟨2, ![a, 1]⟩)
    (i : Fin a) (u : Fin 1) : shapeCast ⟨2, ![a, 1]⟩ x h (ix2 i u) = x (ix2 (0 : Fin 1) i) :=
  shapeCast_apply x h _ _ (by
    have hu : u.val = 0 := by omega
    rw [Shape.rowMajor_val_two, Shape.rowMajor_val_two]
    show 0 * a + i.val = i.val * 1 + u.val
    rw [hu, Nat.zero_mul, Nat.zero_add, Nat.mul_one, Nat.add_zero])

/-- An `[a, 1]` column broadcast to `[a, b]` reads, at `(p, c)`, the column at `p`: every lane of a row holds the row's one
    entry. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.GateBody.lean ====
/-
  The first region's body at one entry of its stored block, on the extended reals.

  The body holds a block of 1024 items: their image rows `x0` and text rows `x4`, and whole the two halves of the first
  layer's weights, its bias, the second layer's weights and bias. Entry `(p, a)` of what it stores is weight `a` of item `p`
  of the block: a matrix product read at an index is the sum over the contracted coordinate, a bias row spread over the
  block reads its own lane, the row maximum and the row sum of the two logits are a fold and a sum over `Fin 2`, and a
  column spread back over the two lanes reads the row's one entry. So the stored entry is `Spec.gate` of rows `p`.
-/
import proofs.«121366_j27092653703861_1_alg».proof.Proof.Gen.KernelIdeal.Skeleton
import proofs.«121366_j27092653703861_1_alg».proof.Proof.Spec
import proofs.«121366_j27092653703861_1_alg».proof.Proof.LibColumn
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.GateBody

open Cert.KernelIdeal Cert.KernelIdeal.Gen Idealize.ShloMosaic Idealize.ShloMosaic.TcCoe
open Idealize.ShloMosaic.ValueIdx

/-! ## The two matrix products at an index -/

abbrev D1 := dot_S1024x64_S64x128_S1024x128_1_0_0_1_n_n
abbrev D2 := dot_S1024x128_S128x2_S1024x2_1_0_0_1_n_n

theorem lhs_D1_0 (i : S1024x128.Idx) (q : dot_S1024x64_S64x128_S1024x128_1_0_0_1_n_n.contr.Idx) :
    (dot_S1024x64_S64x128_S1024x128_1_0_0_1_n_n.lhsIdx i q 0).val = (i 0).val := by
  unfold DotDims.lhsIdx
  rw [dif_neg (show ¬(0 : Fin S1024x64.rank) ∈ dot_S1024x64_S64x128_S1024x128_1_0_0_1_n_n.lhsBatch by decide), dif_pos (show (0 : Fin S1024x64.rank) ∈ dot_S1024x64_S64x128_S1024x128_1_0_0_1_n_n.lhsNonContracting by decide)]
  rfl
theorem lhs_D1_1 (i : S1024x128.Idx) (q : dot_S1024x64_S64x128_S1024x128_1_0_0_1_n_n.contr.Idx) :
    (dot_S1024x64_S64x128_S1024x128_1_0_0_1_n_n.lhsIdx i q 1).val = (q ⟨0, by decide⟩).val :=
  dot_S1024x64_S64x128_S1024x128_1_0_0_1_n_n.lhsIdx_val_of_single rfl i q
theorem rhs_D1_0 (i : S1024x128.Idx) (q : dot_S1024x64_S64x128_S1024x128_1_0_0_1_n_n.contr.Idx) :
    (dot_S1024x64_S64x128_S1024x128_1_0_0_1_n_n.rhsIdx i q 0).val = (q ⟨0, by decide⟩).val :=
  dot_S1024x64_S64x128_S1024x128_1_0_0_1_n_n.rhsIdx_val_of_single rfl i q
theorem rhs_D1_1 (i : S1024x128.Idx) (q : dot_S1024x64_S64x128_S1024x128_1_0_0_1_n_n.contr.Idx) :
    (dot_S1024x64_S64x128_S1024x128_1_0_0_1_n_n.rhsIdx i q 1).val = (i 1).val := by
  unfold DotDims.rhsIdx
  rw [dif_neg (show ¬(1 : Fin S64x128.rank) ∈ dot_S1024x64_S64x128_S1024x128_1_0_0_1_n_n.rhsBatch by decide), dif_pos (show (1 : Fin S64x128.rank) ∈ dot_S1024x64_S64x128_S1024x128_1_0_0_1_n_n.rhsNonContracting by decide)]
  rfl

/-- A `[1024, 64] × [64, 128]` product into the zero accumulator, at `(p, j)`: the sum over the 64 contracted coordinates. -/
theorem dot1_apply (l : FVec Ideal S1024x64 .f32) (r : FVec Ideal S64x128 .f32) (p : Fin 1024) (j : Fin 128) :
    matmul dot_S1024x64_S64x128_S1024x128_1_0_0_1_n_n none l r (constant (F := Ideal) S1024x128 .f32 0x00000000#32) (ix2 p j)
      = ∑ k : Fin 64, l (ix2 p k) * r (ix2 k j) := by
  simp only [matmul]
  rw [Ideal.matmul_constant_zero_apply, ← Equiv.sum_comp (ValueIdx.contrEquiv1 dot_S1024x64_S64x128_S1024x128_1_0_0_1_n_n 64 rfl rfl).symm]
  refine Finset.sum_congr rfl fun k _ => ?_
  have hk := ValueIdx.contrEquiv1_symm_val dot_S1024x64_S64x128_S1024x128_1_0_0_1_n_n 64 rfl rfl k
  have el : dot_S1024x64_S64x128_S1024x128_1_0_0_1_n_n.lhsIdx (ix2 p j) ((ValueIdx.contrEquiv1 dot_S1024x64_S64x128_S1024x128_1_0_0_1_n_n 64 rfl rfl).symm k) = ix2 p k := funext fun a => Fin.ext (by
    match a with
    | ⟨0, _⟩ => exact lhs_D1_0 _ _
    | ⟨1, _⟩ => exact (lhs_D1_1 _ _).trans hk)
  have er : dot_S1024x64_S64x128_S1024x128_1_0_0_1_n_n.rhsIdx (ix2 p j) ((ValueIdx.contrEquiv1 dot_S1024x64_S64x128_S1024x128_1_0_0_1_n_n 64 rfl rfl).symm k) = ix2 k j := funext fun a => Fin.ext (by
    match a with
    | ⟨0, _⟩ => exact (rhs_D1_0 _ _).trans hk
    | ⟨1, _⟩ => exact rhs_D1_1 _ _)
  rw [el, er]

theorem lhs_D2_0 (i : S1024x2.Idx) (q : dot_S1024x128_S128x2_S1024x2_1_0_0_1_n_n.contr.Idx) :
    (dot_S1024x128_S128x2_S1024x2_1_0_0_1_n_n.lhsIdx i q 0).val = (i 0).val := by
  unfold DotDims.lhsIdx
  rw [dif_neg (show ¬(0 : Fin S1024x128.rank) ∈ dot_S1024x128_S128x2_S1024x2_1_0_0_1_n_n.lhsBatch by decide), dif_pos (show (0 : Fin S1024x128.rank) ∈ dot_S1024x128_S128x2_S1024x2_1_0_0_1_n_n.lhsNonContracting by decide)]
  rfl
theorem lhs_D2_1 (i : S1024x2.Idx) (q : dot_S1024x128_S128x2_S1024x2_1_0_0_1_n_n.contr.Idx) :
    (dot_S1024x128_S128x2_S1024x2_1_0_0_1_n_n.lhsIdx i q 1).val = (q ⟨0, by decide⟩).val :=
  dot_S1024x128_S128x2_S1024x2_1_0_0_1_n_n.lhsIdx_val_of_single rfl i q
theorem rhs_D2_0 (i : S1024x2.Idx) (q : dot_S1024x128_S128x2_S1024x2_1_0_0_1_n_n.contr.Idx) :
    (dot_S1024x128_S128x2_S1024x2_1_0_0_1_n_n.rhsIdx i q 0).val = (q ⟨0, by decide⟩).val :=
  dot_S1024x128_S128x2_S1024x2_1_0_0_1_n_n.rhsIdx_val_of_single rfl i q
theorem rhs_D2_1 (i : S1024x2.Idx) (q : dot_S1024x128_S128x2_S1024x2_1_0_0_1_n_n.contr.Idx) :
    (dot_S1024x128_S128x2_S1024x2_1_0_0_1_n_n.rhsIdx i q 1).val = (i 1).val := by
  unfold DotDims.rhsIdx
  rw [dif_neg (show ¬(1 : Fin S128x2.rank) ∈ dot_S1024x128_S128x2_S1024x2_1_0_0_1_n_n.rhsBatch by decide), dif_pos (show (1 : Fin S128x2.rank) ∈ dot_S1024x128_S128x2_S1024x2_1_0_0_1_n_n.rhsNonContracting by decide)]
  rfl

/-- A `[1024, 128] × [128, 2]` product into the zero accumulator, at `(p, a)`: the sum over the 128 contracted coordinates. -/
theorem dot2_apply (l : FVec Ideal S1024x128 .f32) (r : FVec Ideal S128x2 .f32) (p : Fin 1024) (a : Fin 2) :
    matmul dot_S1024x128_S128x2_S1024x2_1_0_0_1_n_n none l r (constant (F := Ideal) S1024x2 .f32 0x00000000#32) (ix2 p a)
      = ∑ k : Fin 128, l (ix2 p k) * r (ix2 k a) := by
  simp only [matmul]
  rw [Ideal.matmul_constant_zero_apply, ← Equiv.sum_comp (ValueIdx.contrEquiv1 dot_S1024x128_S128x2_S1024x2_1_0_0_1_n_n 128 rfl rfl).symm]
  refine Finset.sum_congr rfl fun k _ => ?_
  have hk := ValueIdx.contrEquiv1_symm_val dot_S1024x128_S128x2_S1024x2_1_0_0_1_n_n 128 rfl rfl k
  have el : dot_S1024x128_S128x2_S1024x2_1_0_0_1_n_n.lhsIdx (ix2 p a) ((ValueIdx.contrEquiv1 dot_S1024x128_S128x2_S1024x2_1_0_0_1_n_n 128 rfl rfl).symm k) = ix2 p k := funext fun b => Fin.ext (by
    match b with
    | ⟨0, _⟩ => exact lhs_D2_0 _ _
    | ⟨1, _⟩ => exact (lhs_D2_1 _ _).trans hk)
  have er : dot_S1024x128_S128x2_S1024x2_1_0_0_1_n_n.rhsIdx (ix2 p a) ((ValueIdx.contrEquiv1 dot_S1024x128_S128x2_S1024x2_1_0_0_1_n_n 128 rfl rfl).symm k) = ix2 k a := funext fun b => Fin.ext (by
    match b with
    | ⟨0, _⟩ => exact (rhs_D2_0 _ _).trans hk
    | ⟨1, _⟩ => exact rhs_D2_1 _ _)
  rw [el, er]

/-! ## Bias rows spread over the block -/

/-- The first bias `[128]`, viewed as a row and spread over the 1024 rows, reads its lane `j`. -/
theorem bias1_apply (b1 : FVec Ideal S128 .f32) (p : Fin 1024) (j : Fin 128) :
    broadcastTo S1024x128 (shapeCast S1x128 b1 shapeCasts_S128_S1x128) broadcasts_S1x128_S1024x128 (ix2 p j) = b1 (ix1 j) := by
  rw [broadcastTo_1b_ab_apply, shapeCast_a_1a_apply]

/-- The second bias `[2]` likewise. -/
theorem bias2_apply (b2 : FVec Ideal S2 .f32) (p : Fin 1024) (a : Fin 2) :
    broadcastTo S1024x2 (shapeCast S1x2 b2 shapeCasts_S2_S1x2) broadcasts_S1x2_S1024x2 (ix2 p a) = b2 (ix1 a) := by
  rw [broadcastTo_1b_ab_apply, shapeCast_a_1a_apply]

/-! ## The hidden layer and the logits of the block -/

/-- The block's hidden layer, as the body computes it. -/
def hid (x0 x4 : FVec Ideal S1024x64 .f32) (w1a w1b : FVec Ideal S64x128 .f32) (b1 : FVec Ideal S128 .f32) : FVec Ideal S1024x128 .f32 :=
  maximumf
    (addf
      (addf (matmul dot_S1024x64_S64x128_S1024x128_1_0_0_1_n_n none x0 (shapeCast S64x128 w1a shapeCasts_S64x128_S64x128) (constant (F := Ideal) S1024x128 .f32 0x00000000#32))
        (matmul dot_S1024x64_S64x128_S1024x128_1_0_0_1_n_n none x4 (shapeCast S64x128 w1b shapeCasts_S64x128_S64x128) (constant (F := Ideal) S1024x128 .f32 0x00000000#32)))
      (broadcastTo S1024x128 (shapeCast S1x128 b1 shapeCasts_S128_S1x128) broadcasts_S1x128_S1024x128))
    (broadcast S1024x128 (Scalar.ofBits (F := Ideal) .f32 0x00000000#32))

theorem hid_apply (x0 x4 : FVec Ideal S1024x64 .f32) (w1a w1b : FVec Ideal S64x128 .f32) (b1 : FVec Ideal S128 .f32) (p : Fin 1024) (j : Fin 128) :
    hid x0 x4 w1a w1b b1 (ix2 p j) = Cert.Spec.hidden (fun k => x0 (ix2 p k)) (fun k => x4 (ix2 p k)) w1a w1b b1 j := by
  unfold hid Cert.Spec.hidden
  show max ((matmul dot_S1024x64_S64x128_S1024x128_1_0_0_1_n_n none x0 (shapeCast S64x128 w1a shapeCasts_S64x128_S64x128) (constant (F := Ideal) S1024x128 .f32 0x00000000#32) (ix2 p j)
        + matmul dot_S1024x64_S64x128_S1024x128_1_0_0_1_n_n none x4 (shapeCast S64x128 w1b shapeCasts_S64x128_S64x128) (constant (F := Ideal) S1024x128 .f32 0x00000000#32) (ix2 p j))
      + broadcastTo S1024x128 (shapeCast S1x128 b1 shapeCasts_S128_S1x128) broadcasts_S1x128_S1024x128 (ix2 p j)) (Ideal.ofBits .f32 0x00000000#32) = _
  rw [shapeCast_self, shapeCast_self, dot1_apply, dot1_apply, bias1_apply]

/-- The block's logits, as the body computes them. -/
def logits (x0 x4 : FVec Ideal S1024x64 .f32) (w1a w1b : FVec Ideal S64x128 .f32) (b1 : FVec Ideal S128 .f32)
    (w2 : FVec Ideal S128x2 .f32) (b2 : FVec Ideal S2 .f32) : FVec Ideal S1024x2 .f32 :=
  addf (matmul dot_S1024x128_S128x2_S1024x2_1_0_0_1_n_n none (hid x0 x4 w1a w1b b1) w2 (constant (F := Ideal) S1024x2 .f32 0x00000000#32))
    (broadcastTo S1024x2 (shapeCast S1x2 b2 shapeCasts_S2_S1x2) broadcasts_S1x2_S1024x2)

theorem logits_apply (x0 x4 : FVec Ideal S1024x64 .f32) (w1a w1b : FVec Ideal S64x128 .f32) (b1 : FVec Ideal S128 .f32)
    (w2 : FVec Ideal S128x2 .f32) (b2 : FVec Ideal S2 .f32) (p : Fin 1024) (a : Fin 2) :
    logits x0 x4 w1a w1b b1 w2 b2 (ix2 p a)
      = Cert.Spec.logit (fun k => x0 (ix2 p k)) (fun k => x4 (ix2 p k)) w1a w1b b1 w2 b2 a := by
  unfold logits Cert.Spec.logit
  show matmul dot_S1024x128_S128x2_S1024x2_1_0_0_1_n_n none (hid x0 x4 w1a w1b b1) w2 (constant (F := Ideal) S1024x2 .f32 0x00000000#32) (ix2 p a)
      + broadcastTo S1024x2 (shapeCast S1x2 b2 shapeCasts_S2_S1x2) broadcasts_S1x2_S1024x2 (ix2 p a) = _
  rw [dot2_apply, bias2_apply]
  exact congrArg (· + b2 (ix1 a)) (Finset.sum_congr rfl fun k _ => by rw [hid_apply])

/-! ## The softmax over the two lanes of each row -/

/-- A row's maximum over its two lanes, folded from `-∞`. -/
theorem rowmax_apply (v : FVec Ideal S1024x2 .f32) (p : Fin 1024) :
    multiReduction .maximumf [1] S1024 v 0xFF800000#32 reduces_S1024x2_S1024 (.inl rfl) rfl (ix1 p)
      = (Finset.univ : Finset (Fin 2)).fold max Cert.Spec.negInf (fun k => v (ix2 p k)) := by
  refine (Ideal.multiReduction_maximumf_single v 0xFF800000#32 reduces_S1024x2_S1024 (.inl rfl) rfl (ix1 p)).trans ?_
  show (Finset.univ : Finset (Fin 2)).fold max Cert.Spec.negInf (fun k : Fin 2 => v (reduces_S1024x2_S1024.lift (ix1 p) k)) = _
  exact congrArg ((Finset.univ : Finset (Fin 2)).fold max Cert.Spec.negInf)
    (funext fun k => congrArg v (funext fun a => Fin.ext (by match a with | ⟨0, _⟩ => rfl | ⟨1, _⟩ => rfl)))

/-- A row's sum over its two lanes. -/
theorem rowsum_apply (v : FVec Ideal S1024x2 .f32) (p : Fin 1024) :
    multiReduction .add [1] S1024 v 0x00000000#32 reduces_S1024x2_S1024 (.inl rfl) rfl (ix1 p) = ∑ k : Fin 2, v (ix2 p k) := by
  refine (Ideal.multiReduction_add_single v 0x00000000#32 reduces_S1024x2_S1024 (.inl rfl) rfl (ix1 p)).trans ?_
  show ∑ k : Fin 2, v (reduces_S1024x2_S1024.lift (ix1 p) k) = _
  exact Finset.sum_congr rfl fun k _ => congrArg v (funext fun a => Fin.ext (by match a with | ⟨0, _⟩ => rfl | ⟨1, _⟩ => rfl))

/-- The shift: each row's maximum, capped below by `-∞`, as a column spread back over the two lanes. -/
def shiftBlock (v : FVec Ideal S1024x2 .f32) : FVec Ideal S1024x2 .f32 :=
  broadcastTo S1024x2
    (shapeCast S1024x1
      (maximumf (broadcast S1024 (Scalar.ofBits (F := Ideal) .f32 0xFF800000#32))
        (multiReduction .maximumf [1] S1024 v 0xFF800000#32 reduces_S1024x2_S1024 (.inl rfl) rfl))
      shapeCasts_S1024_S1024x1)
    broadcasts_S1024x1_S1024x2

theorem shiftBlock_apply (v : FVec Ideal S1024x2 .f32) (p : Fin 1024) (a : Fin 2) :
    shiftBlock v (ix2 p a) = Cert.Spec.shift (fun k => v (ix2 p k)) := by
  unfold shiftBlock Cert.Spec.shift
  rw [Cert.LibColumn.broadcastTo_a1_ab_apply, Cert.LibColumn.shapeCast_a_a1_apply]
  show max (Ideal.ofBits .f32 0xFF800000#32) (multiReduction .maximumf [1] S1024 v 0xFF800000#32 reduces_S1024x2_S1024 (.inl rfl) rfl (ix1 p)) = _
  rw [rowmax_apply]

/-- The softmax of a block of logits, as the body computes it. -/
def smax (v : FVec Ideal S1024x2 .f32) : FVec Ideal S1024x2 .f32 :=
  divf (exp (subf v (shiftBlock v)))
    (broadcastTo S1024x2
      (shapeCast S1024x1
        (multiReduction .add [1] S1024 (exp (subf v (shiftBlock v))) 0x00000000#32 reduces_S1024x2_S1024 (.inl rfl) rfl)
        shapeCasts_S1024_S1024x1)
      broadcasts_S1024x1_S1024x2)

theorem expShift_apply (v : FVec Ideal S1024x2 .f32) (p : Fin 1024) (a : Fin 2) :
    exp (subf v (shiftBlock v)) (ix2 p a) = Ideal.exp (v (ix2 p a) - Cert.Spec.shift (fun k => v (ix2 p k))) := by
  show Ideal.exp (v (ix2 p a) - shiftBlock v (ix2 p a)) = _
  rw [shiftBlock_apply]

theorem smax_apply (v : FVec Ideal S1024x2 .f32) (p : Fin 1024) (a : Fin 2) :
    smax v (ix2 p a) = Cert.Spec.softmax2 (fun k => v (ix2 p k)) a := by
  unfold smax Cert.Spec.softmax2
  show Ideal.div (exp (subf v (shiftBlock v)) (ix2 p a))
      (broadcastTo S1024x2 (shapeCast S1024x1 (multiReduction .add [1] S1024 (exp (subf v (shiftBlock v))) 0x00000000#32 reduces_S1024x2_S1024 (.inl rfl) rfl) shapeCasts_S1024_S1024x1) broadcasts_S1024x1_S1024x2 (ix2 p a)) = _
  rw [Cert.LibColumn.broadcastTo_a1_ab_apply, Cert.LibColumn.shapeCast_a_a1_apply, rowsum_apply, expShift_apply]
  exact congrArg (Ideal.div _) (Finset.sum_congr rfl fun k _ => expShift_apply v p k)

/-! ## The stored block -/

/-- The body's stored value is the softmax of the logits (the payload's lines, regrouped). -/
theorem stored_eq (x0 x4 : FVec Ideal S1024x64 .f32) (w1a w1b : FVec Ideal S64x128 .f32) (b1 : FVec Ideal S128 .f32)
    (w2 : FVec Ideal S128x2 .f32) (b2 : FVec Ideal S2 .f32) :
    k0_pay1 (F := Ideal) x0 w1a x4 w1b b1 w2 b2 = smax (logits x0 x4 w1a w1b b1 w2 b2) := rfl

/-- Entry `(p, a)` of the stored block is weight `a` of item `p` of the block. -/
theorem stored_apply (x0 x4 : FVec Ideal S1024x64 .f32) (w1a w1b : FVec Ideal S64x128 .f32) (b1 : FVec Ideal S128 .f32)
    (w2 : FVec Ideal S128x2 .f32) (b2 : FVec Ideal S2 .f32) (p : Fin 1024) (a : Fin 2) :
    k0_pay1 (F := Ideal) x0 w1a x4 w1b b1 w2 b2 (ix2 p a)
      = Cert.Spec.gate (fun k => x0 (ix2 p k)) (fun k => x4 (ix2 p k)) w1a w1b b1 w2 b2 a := by
  rw [stored_eq, smax_apply]
  unfold Cert.Spec.gate
  exact congrArg (fun l => Cert.Spec.softmax2 l a) (funext fun k => logits_apply x0 x4 w1a w1b b1 w2 b2 p k)

end Cert.KernelIdeal.GateBody

end
-- ==== Proof.GateValue.lean ====
/-
  The first region's output array after its run, as one function of the arrays the region is entered with, on the
  extended reals.

  The region's grid is 8 points; at point `b` the body holds rows `b · 1024 … b · 1024 + 1023` of the two embedding arrays and
  the five small arrays whole, and stores the two weights of each of its 1024 items into the same rows of the `[8192, 2]`
  output. Entry `(p, a)` of the stored block is weight `a` of the block's item `p` (the body, read at an index), item `p` of
  block `b` is item `b · 1024 + p` of the array, so what a point writes back is its block of `Spec.gateArr`, and the eight
  blocks tile the output.
-/
import proofs.«121366_j27092653703861_1_alg».proof.Proof.Gen.KernelIdeal.Frame
import proofs.«121366_j27092653703861_1_alg».proof.Proof.GateBody
import Idealize.ShloMosaic.Lib.Pipeline.Value

set_option maxRecDepth 16384

noncomputable section

namespace Cert.KernelIdeal.Gate

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

theorem origin2 : (![0, 0] : Fin 2 → Nat) = fun _ => 0 := funext fun a => by fin_cases a <;> rfl
theorem origin1 : (![0] : Fin 1 → Nat) = fun _ => 0 := funext fun a => by fin_cases a; rfl

/-- The printed index maps over the 8 grid points: the two embedding windows move with the output's block row and stay on
    block column 0; the five small windows stay on block 0; the output's block row is below 8. -/
theorem index_facts : ∀ t : Fin cfg0.N, win0_0.index t (0 : Fin 2) = win0_7.index t (0 : Fin 2)
    ∧ win0_0.index t (1 : Fin 2) = 0
    ∧ win0_1.index t (0 : Fin 2) = win0_7.index t (0 : Fin 2)
    ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (1 : Fin 2) = 0
    ∧ win0_7.index t (0 : Fin 2) ≤ 7 :=
  (by decide +kernel : ∀ t : Fin grid0.N, _)

/-- Every block row of the output is some point's. -/
theorem index_onto : ∀ (q0 : Fin 8), ∃ t : Fin cfg0.N, win0_7.index t = ![q0.val, 0] :=
  (by decide +kernel : ∀ (q0 : Fin 8), ∃ t : Fin grid0.N, win0_7.index t = ![q0.val, 0])

/-- What point `t` writes back is block `t` of `Spec.gateArr` of the arrays as the region finds them. -/
theorem flushed_eq (c : Dev nD) (t : Fin cfg0.N) :
    (dat0 V c).flushed 7 t = ((cfg0.win 7).blk t).view.read (Elt Ideal)
      (Cert.Spec.gateArr (V c main_arg0) (V c main_arg1) (V c main_v0) (V c main_v1) (V c main_arg5) (V c main_arg6) (V c main_arg7)) := by
  show (cfg0.win 7).cut (grid0.coords t) ((dat0 V c).after 7 t) = _
  rw [after0_7]
  unfold out0_7
  rw [View.canon_unit_zero origin2]
  simp only [View.ld_unit_zero (S := S1024x64) origin2, View.ld_unit_zero (S := S64x128) origin2, View.ld_unit_zero (S := S128) origin1,
    View.ld_unit_zero (S := S128x2) origin2, View.ld_unit_zero (S := S2) origin1]
  obtain ⟨e0, e1, e2, e3, e4, e5, e6, e7, e8, e9, e10, e11, e12, e13⟩ := index_facts t
  funext j
  obtain ⟨p, a, rfl⟩ : ∃ (p : Fin 1024) (a : Fin 2), j = ix2 p a := ⟨j 0, j 1, eq_ix2 j⟩
  show k0_pay1 (F := Ideal) (iblk0 V c 0 t) (iblk0 V c 2 t) (iblk0 V c 1 t) (iblk0 V c 3 t) (iblk0 V c 4 t) (iblk0 V c 5 t) (iblk0 V c 6 t) (ix2 p a) = _
  refine (GateBody.stored_apply (iblk0 V c 0 t) (iblk0 V c 1 t) (iblk0 V c 2 t) (iblk0 V c 3 t) (iblk0 V c 4 t) (iblk0 V c 5 t) (iblk0 V c 6 t) p a).trans ?_
  have hp : p.val < 1024 := p.isLt
  have ha : a.val < 2 := a.isLt
  have hx : (fun k : Fin 64 => iblk0 V c 0 t (ix2 p k)) = fun k : Fin 64 => V c main_arg0 (ix2 ((((cfg0.win 7).blk t).view.emb (ix2 p a)) 0) k) := by
    funext k
    show V c main_arg0 (((cfg0.win 0).blk t).view.emb (ix2 p k)) = _
    refine congrArg (V c main_arg0) (funext fun b => Fin.ext ?_)
    have hk : k.val < 64 := k.isLt
    match b with
    | ⟨0, _⟩ => show win0_0.index t (0 : Fin 2) * 1024 + 1 * p.val = win0_7.index t (0 : Fin 2) * 1024 + 1 * p.val; omega
    | ⟨1, _⟩ => show win0_0.index t (1 : Fin 2) * 64 + 1 * k.val = k.val; omega
  have hy : (fun k : Fin 64 => iblk0 V c 1 t (ix2 p k)) = fun k : Fin 64 => V c main_arg1 (ix2 ((((cfg0.win 7).blk t).view.emb (ix2 p a)) 0) k) := by
    funext k
    show V c main_arg1 (((cfg0.win 1).blk t).view.emb (ix2 p k)) = _
    refine congrArg (V c main_arg1) (funext fun b => Fin.ext ?_)
    have hk : k.val < 64 := k.isLt
    match b with
    | ⟨0, _⟩ => show win0_1.index t (0 : Fin 2) * 1024 + 1 * p.val = win0_7.index t (0 : Fin 2) * 1024 + 1 * p.val; omega
    | ⟨1, _⟩ => show win0_1.index t (1 : Fin 2) * 64 + 1 * k.val = k.val; omega
  have h2 : iblk0 V c 2 t = V c main_v0 := by
    funext i
    show V c main_v0 (((cfg0.win 2).blk t).view.emb i) = _
    refine congrArg (V c main_v0) (funext fun b => Fin.ext ?_)
    match b with
    | ⟨0, _⟩ => show win0_2.index t (0 : Fin 2) * 64 + 1 * (i 0).val = (i 0).val; omega
    | ⟨1, _⟩ => show win0_2.index t (1 : Fin 2) * 128 + 1 * (i 1).val = (i 1).val; omega
  have h3 : iblk0 V c 3 t = V c main_v1 := by
    funext i
    show V c main_v1 (((cfg0.win 3).blk t).view.emb i) = _
    refine congrArg (V c main_v1) (funext fun b => Fin.ext ?_)
    match b with
    | ⟨0, _⟩ => show win0_3.index t (0 : Fin 2) * 64 + 1 * (i 0).val = (i 0).val; omega
    | ⟨1, _⟩ => show win0_3.index t (1 : Fin 2) * 128 + 1 * (i 1).val = (i 1).val; omega
  have h4 : iblk0 V c 4 t = V c main_arg5 := by
    funext i
    show V c main_arg5 (((cfg0.win 4).blk t).view.emb i) = _
    refine congrArg (V c main_arg5) (funext fun b => Fin.ext ?_)
    match b with
    | ⟨0, _⟩ => show win0_4.index t (0 : Fin 1) * 128 + 1 * (i 0).val = (i 0).val; omega
  have h5 : iblk0 V c 5 t = V c main_arg6 := by
    funext i
    show V c main_arg6 (((cfg0.win 5).blk t).view.emb i) = _
    refine congrArg (V c main_arg6) (funext fun b => Fin.ext ?_)
    match b with
    | ⟨0, _⟩ => show win0_5.index t (0 : Fin 2) * 128 + 1 * (i 0).val = (i 0).val; omega
    | ⟨1, _⟩ => show win0_5.index t (1 : Fin 2) * 2 + 1 * (i 1).val = (i 1).val; omega
  have h6 : iblk0 V c 6 t = V c main_arg7 := by
    funext i
    show V c main_arg7 (((cfg0.win 6).blk t).view.emb i) = _
    refine congrArg (V c main_arg7) (funext fun b => Fin.ext ?_)
    match b with
    | ⟨0, _⟩ => show win0_6.index t (0 : Fin 1) * 2 + 1 * (i 0).val = (i 0).val; omega
  have hlane : (((cfg0.win 7).blk t).view.emb (ix2 p a)) 1 = a := Fin.ext (by
    show win0_7.index t (1 : Fin 2) * 2 + 1 * a.val = a.val; omega)
  rw [hx, hy, h2, h3, h4, h5, h6]
  unfold Cert.Spec.gateArr
  exact congrArg (Cert.Spec.gate _ _ _ _ _ _ _) hlane.symm

/-- An index of the output is in point `t`'s block iff each coordinate is in the block's range on its axis. -/
theorem mem_block (t : Fin cfg0.N) (i : S8192x2.Idx) :
    i ∈ ((cfg0.win 7).blk t).view.set ↔ ∀ a : Fin 2, win0_7.index t a * S1024x2.size a ≤ (i a).val ∧ (i a).val < win0_7.index t a * S1024x2.size a + S1024x2.size a := by
  show i ∈ ((View.whole main_v2).slice (win0_7.rect t)).set ↔ _
  rw [View.set_slice_whole, Rect.mem_set_unit]
  exact Iff.rfl

/-- The 8 blocks cover the output: item `r` lies in the block of the point with block row `r / 1024`. -/
theorem cover (i : S8192x2.Idx) : ∃ t : Fin cfg0.N, (cfg0.win 7).flush t = true ∧ i ∈ ((cfg0.win 7).blk t).view.set := by
  have hi0 : (i 0).val < 8192 := (i 0).isLt
  have hi1 : (i 1).val < 2 := (i 1).isLt
  obtain ⟨t, ht⟩ := index_onto ⟨(i 0).val / 1024, by omega⟩
  have q0 : win0_7.index t (0 : Fin 2) = (i 0).val / 1024 := congrFun ht 0
  have q1 : win0_7.index t (1 : Fin 2) = 0 := congrFun ht 1
  refine ⟨t, flush0_7 t, ?_⟩
  rw [mem_block]
  intro a
  match a with
  | ⟨0, _⟩ => show win0_7.index t (0 : Fin 2) * 1024 ≤ (i 0).val ∧ (i 0).val < win0_7.index t (0 : Fin 2) * 1024 + 1024; omega
  | ⟨1, _⟩ => show win0_7.index t (1 : Fin 2) * 2 ≤ (i 1).val ∧ (i 1).val < win0_7.index t (1 : Fin 2) * 2 + 2; omega

/-- The output array after the region's run is `Spec.gateArr` of the seven arrays the region is entered with. -/
theorem final (c : Dev nD) :
    (dat0 V c).arrAt 7 cfg0.N
      = Cert.Spec.gateArr (V c main_arg0) (V c main_arg1) (V c main_v0) (V c main_v1) (V c main_arg5) (V c main_arg6) (V c main_arg7) :=
  (dat0 V c).arrAt_eq_of_cover 7 _ (fun t _ => flushed_eq V c t) cover

end Cert.KernelIdeal.Gate

end
-- ==== Proof.Boundary.lean ====
/-
  What each region finds in its operand arrays when it is entered, read back to the launch memory.

  The program is: two slices of the first layer's weights; region 0 (the gate); a slice, a reshape to a vector and a
  reshape to a row, for each of the gate's two columns; region 1 (the merge). The contents of the buffers at each boundary
  are a fold from the launch memory: a stretch of layout operations applies them in order, a region leaves its output
  array at what its write-backs leave and every other buffer as it found it. Read at the buffers the regions take:
  region 0 finds the five arguments it reads as launched and the two halves of the weight matrix as slices of argument 4;
  region 1 finds the two adjacency matrices as launched and each weight row as a column of region 0's output array laid
  out as a row.
-/
import proofs.«121366_j27092653703861_1_alg».proof.Proof.Gen.KernelIdeal.Frame
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.Boundary

open Cert.KernelIdeal Cert.KernelIdeal.Gen Idealize.ShloMosaic Idealize.ShloMosaic.TcCoe Idealize.SL.Sem
open Idealize.ShloMosaic.Pipeline (Dat)
open Idealize.ShloMosaic.ValueIdx

variable {F : FTy → Type} [FloatOps F]
variable (m : (ℓ : Loc nD τ sig) → Buf (Elt F) ℓ) (ρ : Dev nD → PrngReg)

/-! ## Region 0's entry -/

/-- Region 0 finds argument 0 as launched: the two slices before it write other buffers. -/
theorem entry0_arg0 (c : Dev nD) : V1 m ρ c main_arg0 = m ((c : Thread nD τ).loc main_arg0) :=
  (StableHlo.after_of_forall_not_mem (b := Proc.devRef .tc main_arg0) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

/-- Region 0 finds argument 1 as launched: the two slices before it write other buffers. -/
theorem entry0_arg1 (c : Dev nD) : V1 m ρ c main_arg1 = m ((c : Thread nD τ).loc main_arg1) :=
  (StableHlo.after_of_forall_not_mem (b := Proc.devRef .tc main_arg1) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

/-- Region 0 finds argument 5 as launched: the two slices before it write other buffers. -/
theorem entry0_arg5 (c : Dev nD) : V1 m ρ c main_arg5 = m ((c : Thread nD τ).loc main_arg5) :=
  (StableHlo.after_of_forall_not_mem (b := Proc.devRef .tc main_arg5) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

/-- Region 0 finds argument 6 as launched: the two slices before it write other buffers. -/
theorem entry0_arg6 (c : Dev nD) : V1 m ρ c main_arg6 = m ((c : Thread nD τ).loc main_arg6) :=
  (StableHlo.after_of_forall_not_mem (b := Proc.devRef .tc main_arg6) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

/-- Region 0 finds argument 7 as launched: the two slices before it write other buffers. -/
theorem entry0_arg7 (c : Dev nD) : V1 m ρ c main_arg7 = m ((c : Thread nD τ).loc main_arg7) :=
  (StableHlo.after_of_forall_not_mem (b := Proc.devRef .tc main_arg7) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

/-- Region 0 finds the upper 64 rows of the first layer's weights in its third operand. -/
theorem entry0_upper (c : Dev nD) :
    V1 m ρ c main_v0 = extractStridedSlice S64x128 ![0, 0] (m ((c : Thread nD τ).loc main_arg4)) slices_S128x128_S64x128_0_0 := by
  show StableHlo.after hostOps0 (W0 m ρ c) (Proc.devRef .tc main_v0) = _
  after_results

/-- Region 0 finds the lower 64 rows of the first layer's weights in its fourth operand. -/
theorem entry0_lower (c : Dev nD) :
    V1 m ρ c main_v1 = extractStridedSlice S64x128 ![64, 0] (m ((c : Thread nD τ).loc main_arg4)) slices_S128x128_S64x128_64_0 := by
  show StableHlo.after hostOps0 (W0 m ρ c) (Proc.devRef .tc main_v1) = _
  after_results

/-! ## Region 1's entry -/

/-- Region 1 finds argument 2 as launched: neither the slices, nor region 0 (it is none of its arrays), nor the six layout
    operations between the regions write it. -/
theorem entry1_arg2 (c : Dev nD) : V3 m ρ c main_arg2 = m ((c : Thread nD τ).loc main_arg2) :=
  calc V3 m ρ c main_arg2
    _ = W2 m ρ c (Proc.devRef .tc main_arg2) := (StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
    _ = W1 m ρ c (Proc.devRef .tc main_arg2) := W2_of_ne m ρ c main_arg2 (by decide)
    _ = W0 m ρ c (Proc.devRef .tc main_arg2) := (StableHlo.after_of_forall_not_mem (b := Proc.devRef .tc main_arg2) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
    _ = m ((c : Thread nD τ).loc main_arg2) := rfl

/-- Region 1 finds argument 3 as launched: neither the slices, nor region 0 (it is none of its arrays), nor the six layout
    operations between the regions write it. -/
theorem entry1_arg3 (c : Dev nD) : V3 m ρ c main_arg3 = m ((c : Thread nD τ).loc main_arg3) :=
  calc V3 m ρ c main_arg3
    _ = W2 m ρ c (Proc.devRef .tc main_arg3) := (StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
    _ = W1 m ρ c (Proc.devRef .tc main_arg3) := W2_of_ne m ρ c main_arg3 (by decide)
    _ = W0 m ρ c (Proc.devRef .tc main_arg3) := (StableHlo.after_of_forall_not_mem (b := Proc.devRef .tc main_arg3) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
    _ = m ((c : Thread nD τ).loc main_arg3) := rfl

/-- Region 1's first weight row is column 0 of region 0's output array, cut out, flattened and laid out as a row. -/
theorem entry1_row0 (c : Dev nD) :
    V3 m ρ c main_v5 = shapeCast _ (shapeCast _ (extractStridedSlice S8192x1 ![0, 0] ((dat0 (V1 m ρ) c).arrAt 7 cfg0.N) slices_S8192x2_S8192x1_0_0) shapeCasts_S8192x1_S8192) shapeCasts_S8192_S1x8192 := by
  show StableHlo.after hostOps1 (W2 m ρ c) (Proc.devRef .tc main_v5) = _
  after_results
  exact congrArg (fun g => shapeCast _ (shapeCast _ (extractStridedSlice S8192x1 ![0, 0] g slices_S8192x2_S8192x1_0_0) shapeCasts_S8192x1_S8192) shapeCasts_S8192_S1x8192) (W2_arr m ρ c 7)

/-- Region 1's second weight row is column 1 of region 0's output array, likewise. -/
theorem entry1_row1 (c : Dev nD) :
    V3 m ρ c main_v8 = shapeCast _ (shapeCast _ (extractStridedSlice S8192x1 ![0, 1] ((dat0 (V1 m ρ) c).arrAt 7 cfg0.N) slices_S8192x2_S8192x1_0_1) shapeCasts_S8192x1_S8192) shapeCasts_S8192_S1x8192 := by
  show StableHlo.after hostOps1 (W2 m ρ c) (Proc.devRef .tc main_v8) = _
  after_results
  exact congrArg (fun g => shapeCast _ (shapeCast _ (extractStridedSlice S8192x1 ![0, 1] g slices_S8192x2_S8192x1_0_1) shapeCasts_S8192x1_S8192) shapeCasts_S8192_S1x8192) (W2_arr m ρ c 7)

/-! ## The layout between the regions, read at an index -/

/-- Column `o` of a `[8192, 2]` array, cut out as `[8192, 1]`, flattened to `[8192]` and laid out as `[1, 8192]`, reads at
    `(0, j)` the array's entry `(j, o)`. -/
theorem column_as_row_apply {α : Type} (o : Nat) (G : S8192x2.Idx → α) (hs : S8192x2.Slices ![0, o] S8192x1)
    (u : Fin 1) (j : Fin 8192) (k : Fin 2) (hk : k.val = o) :
    shapeCast S1x8192 (shapeCast S8192 (extractStridedSlice S8192x1 ![0, o] G hs) shapeCasts_S8192x1_S8192) shapeCasts_S8192_S1x8192 (ix2 u j)
      = G (ix2 j k) := by
  rw [shapeCast_a_1a_apply]
  refine (shapeCast_apply _ shapeCasts_S8192x1_S8192 (ix1 j) (ix2 j (0 : Fin 1)) (by
    rw [Shape.rowMajor_val_two, Shape.rowMajor_val_one]; show j.val * 1 + 0 = j.val; omega)).trans ?_
  exact slice2_axis1_apply o G hs j (0 : Fin 1) k (by rw [hk]; rfl)

end Cert.KernelIdeal.Boundary

end
-- ==== Proof.KernelValue.lean ====
/-
  The kernel program's result, after its run, is the specification `Spec.result` of its arguments.

  The result buffer is the second region's output array: the merge (`Merge.final`) of the two adjacency matrices, found as
  launched, by two weight rows; each weight row is a column of the first region's output array laid out as a row
  (`Boundary.entry1_row0`, `entry1_row1`, `column_as_row_apply`); the first region's output array is the gate (`Gate.final`) of
  the embeddings, biases and second-layer weights as launched and of the upper and lower halves of the first layer's weight
  matrix, which two slices cut out before the region.
-/
import proofs.«121366_j27092653703861_1_alg».proof.Proof.KernelRun
import proofs.«121366_j27092653703861_1_alg».proof.Proof.MergeValue
import proofs.«121366_j27092653703861_1_alg».proof.Proof.GateValue
import proofs.«121366_j27092653703861_1_alg».proof.Proof.Boundary
import proofs.«121366_j27092653703861_1_alg».proof.Proof.Spec

set_option maxRecDepth 16384

noncomputable section

namespace Cert.KernelIdeal.Whole

open Cert.KernelIdeal Cert.KernelIdeal.Gen Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ) (ρ : Dev nD → PrngReg)

/-- The upper 64 rows of a `[128, 128]` matrix, as the slice cuts them. -/
theorem upper_eq (W : S128x128.Idx → EReal) :
    extractStridedSlice S64x128 ![0, 0] W slices_S128x128_S64x128_0_0 = Cert.Spec.upper W := by
  funext i
  obtain ⟨a, b, rfl⟩ : ∃ (a : Fin 64) (b : Fin 128), i = ix2 a b := ⟨i 0, i 1, eq_ix2 i⟩
  exact slice2_axis0_apply 0 W slices_S128x128_S64x128_0_0 a b ⟨a.val, by have := a.isLt; omega⟩ (Nat.zero_add _).symm

/-- The lower 64 rows. -/
theorem lower_eq (W : S128x128.Idx → EReal) :
    extractStridedSlice S64x128 ![64, 0] W slices_S128x128_S64x128_64_0 = Cert.Spec.lower W := by
  funext i
  obtain ⟨a, b, rfl⟩ : ∃ (a : Fin 64) (b : Fin 128), i = ix2 a b := ⟨i 0, i 1, eq_ix2 i⟩
  exact slice2_axis0_apply 64 W slices_S128x128_S64x128_64_0 a b ⟨64 + a.val, by have := a.isLt; omega⟩ rfl

/-- The first region's output array after its run: the gate of the launched arrays. -/
theorem gate_out (c : Dev nD) :
    (dat0 (V1 m ρ) c).arrAt 7 cfg0.N
      = Cert.Spec.gateArr (m ((c : Thread nD τ).loc main_arg0)) (m ((c : Thread nD τ).loc main_arg1))
          (Cert.Spec.upper (m ((c : Thread nD τ).loc main_arg4))) (Cert.Spec.lower (m ((c : Thread nD τ).loc main_arg4)))
          (m ((c : Thread nD τ).loc main_arg5)) (m ((c : Thread nD τ).loc main_arg6)) (m ((c : Thread nD τ).loc main_arg7)) := by
  rw [Gate.final (V1 m ρ) c, Boundary.entry0_arg0, Boundary.entry0_arg1, Boundary.entry0_arg5, Boundary.entry0_arg6,
    Boundary.entry0_arg7, Boundary.entry0_upper, Boundary.entry0_lower, upper_eq, lower_eq]

/-- The second region's first weight row at `(0, j)` is weight 0 of item `j`. -/
theorem row0 (c : Dev nD) (u : Fin 1) (j : Fin 8192) :
    V3 m ρ c main_v5 (ix2 u j)
      = Cert.Spec.gateArr (m ((c : Thread nD τ).loc main_arg0)) (m ((c : Thread nD τ).loc main_arg1))
          (Cert.Spec.upper (m ((c : Thread nD τ).loc main_arg4))) (Cert.Spec.lower (m ((c : Thread nD τ).loc main_arg4)))
          (m ((c : Thread nD τ).loc main_arg5)) (m ((c : Thread nD τ).loc main_arg6)) (m ((c : Thread nD τ).loc main_arg7)) (ix2 j (0 : Fin 2)) := by
  rw [Boundary.entry1_row0]
  refine (Boundary.column_as_row_apply 0 _ slices_S8192x2_S8192x1_0_0 u j (0 : Fin 2) rfl).trans ?_
  rw [gate_out]

/-- The second weight row at `(0, j)` is weight 1 of item `j`. -/
theorem row1 (c : Dev nD) (u : Fin 1) (j : Fin 8192) :
    V3 m ρ c main_v8 (ix2 u j)
      = Cert.Spec.gateArr (m ((c : Thread nD τ).loc main_arg0)) (m ((c : Thread nD τ).loc main_arg1))
          (Cert.Spec.upper (m ((c : Thread nD τ).loc main_arg4))) (Cert.Spec.lower (m ((c : Thread nD τ).loc main_arg4)))
          (m ((c : Thread nD τ).loc main_arg5)) (m ((c : Thread nD τ).loc main_arg6)) (m ((c : Thread nD τ).loc main_arg7)) (ix2 j (1 : Fin 2)) := by
  rw [Boundary.entry1_row1]
  refine (Boundary.column_as_row_apply 1 _ slices_S8192x2_S8192x1_0_1 u j (1 : Fin 2) rfl).trans ?_
  rw [gate_out]

/-- The result buffer's final contents are the specification of the launched arguments. -/
theorem result_eq (c : Dev nD) :
    W4 m ρ c (Proc.devRef .tc main_v9)
      = Cert.Spec.result (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) := by
  refine (W4_arr m ρ c 4).trans ?_
  rw [Merge.final (V3 m ρ) c, Boundary.entry1_arg2, Boundary.entry1_arg3]
  funext i
  obtain ⟨r, s, rfl⟩ : ∃ (r s : Fin 8192), i = ix2 r s := ⟨i 0, i 1, eq_ix2 i⟩
  show FloatOps.addf (F := Ideal) (φ := .f32)
      (FloatOps.mulf (F := Ideal) (φ := .f32) (V3 m ρ c main_v5 (ix2 (0 : Fin 1) s)) (m ((c : Thread nD τ).loc main_arg2) (ix2 r s)))
      (FloatOps.mulf (F := Ideal) (φ := .f32) (V3 m ρ c main_v8 (ix2 (0 : Fin 1) s)) (m ((c : Thread nD τ).loc main_arg3) (ix2 r s))) = _
  rw [row0, row1]
  rfl

/-- The kernel program's run: it terminates without a fault, its result is the specification of its arguments, and its
    arguments end as launched. -/
theorem run : θ_run defs (onTc (τ := τ) (main (F := Ideal))) ⟨m, fun _ => 0, ρ⟩ (fun r => ∀ c : Dev nD,
      r.2.mem ((c.tc : Thread nD τ).loc main_v9)
        = Cert.Spec.result (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (result_eq m ρ c), (h c).2⟩) (Named.run_named m ρ)

end Cert.KernelIdeal.Whole

end
-- ==== Proof.RefValue.lean ====
/-
  The reference program's result, read one operation at a time, is the specification `Spec.result` of its arguments.

  The reference joins the two embedding arrays along their columns and multiplies by the whole `[128, 128]` weight matrix:
  at `(s, j)` that is the sum over 128 joined columns, which splits into the first 64 (the image row against the matrix's upper
  rows) and the last 64 (the text row against its lower rows). The bias, the clip at zero, the second product and bias, the
  shifted softmax over the two logits (a maximum folded from `-∞`, capped by `-∞`; a sum started from the word of zero, which
  is the real zero) and the merge of the two adjacency matrices by the weights of the column's item read off the generated
  one-operation lemmas directly.
-/
import proofs.«121366_j27092653703861_1_alg».proof.Proof.Gen.ReferenceIdeal.Read
import proofs.«121366_j27092653703861_1_alg».proof.Proof.Spec
import Idealize.ShloMosaic.Lib.Pipeline.Value
import Idealize.ShloMosaic.Lib.ValueIdx
import Idealize.ShloMosaic.PureOps.Ideal.Laws
import Idealize.ShloMosaic.PureOps.Reduce

noncomputable section

namespace Cert.ReferenceIdeal.RefValue

open Cert.ReferenceIdeal Cert.ReferenceIdeal.Gen Cert.ReferenceIdeal.Read Idealize.ShloMosaic Idealize.ShloMosaic.TcCoe
open Idealize.ShloMosaic.ValueIdx

variable (x0 x1 : FVec Ideal S8192x64 .f32) (x2 x3 : FVec Ideal S8192x8192 .f32) (x4 : FVec Ideal S128x128 .f32)
  (x5 : FVec Ideal S128 .f32) (x6 : FVec Ideal S128x2 .f32) (x7 : FVec Ideal S2 .f32)

/-! ## The joined embeddings -/

/-- Column `k < 64` of the joined array is the image array's column `k`. -/
theorem joined_left (s : Fin 8192) (k : Fin 64) (hk : k.val < 128) :
    val_main_v0 (F := Ideal) x0 x1 (ix2 s (⟨k.val, hk⟩ : Fin 128)) = x0 (ix2 s k) := by
  unfold val_main_v0
  exact concatenate_pair_apply_left _ x0 x1 concatenates_S8192x64_S8192x64_S8192x128_d1 _ rfl (ix2 s k)
    (fun b => by match b with | ⟨0, _⟩ => rfl | ⟨1, _⟩ => rfl)

/-- Column `64 + k` of the joined array is the text array's column `k`. -/
theorem joined_right (s : Fin 8192) (k : Fin 64) (hk : 64 + k.val < 128) :
    val_main_v0 (F := Ideal) x0 x1 (ix2 s (⟨64 + k.val, hk⟩ : Fin 128)) = x1 (ix2 s k) := by
  unfold val_main_v0
  exact concatenate_pair_apply_right _ x0 x1 concatenates_S8192x64_S8192x64_S8192x128_d1 _ rfl rfl (ix2 s k)
    (fun b hb => by match b with | ⟨0, _⟩ => rfl | ⟨1, _⟩ => exact absurd rfl hb)
    (by show k.val + 64 = 64 + k.val; omega)

/-! ## The hidden layer -/

theorem ref_hidden (s : Fin 8192) (j : Fin 128) :
    val_main_v5 (F := Ideal) x0 x1 x4 x5 (ix2 s j)
      = Cert.Spec.hidden (fun k => x0 (ix2 s k)) (fun k => x1 (ix2 s k)) (Cert.Spec.upper x4) (Cert.Spec.lower x4) x5 j := by
  rw [val_main_v5_apply, val_main_v4_apply, val_main_v1_apply, val_main_v3_apply, val_main_v2_apply, val_main_call0_v0_apply,
    val_main_call0_cst_apply]
  have hsum : (∑ k : Fin 128, val_main_v0 (F := Ideal) x0 x1 (lidx_main_v1 (ix2 s j) k) * x4 (ridx_main_v1 (ix2 s j) k))
      = (∑ k : Fin 64, x0 (ix2 s k) * Cert.Spec.upper x4 (ix2 k j)) + ∑ k : Fin 64, x1 (ix2 s k) * Cert.Spec.lower x4 (ix2 k j) := by
    refine (Cert.Spec.sum_join _).trans ?_
    refine congrArg₂ (· + ·) (Finset.sum_congr rfl fun k _ => ?_) (Finset.sum_congr rfl fun k _ => ?_)
    · have hk : k.val < 128 := by have := k.isLt; omega
      show val_main_v0 (F := Ideal) x0 x1 (lidx_main_v1 (ix2 s j) ⟨k.val, hk⟩) * x4 (ridx_main_v1 (ix2 s j) ⟨k.val, hk⟩) = _
      have e1 : lidx_main_v1 (ix2 s j) ⟨k.val, hk⟩ = ix2 s (⟨k.val, hk⟩ : Fin 128) :=
        funext fun a => Fin.ext (by match a with | ⟨0, _⟩ => rfl | ⟨1, _⟩ => rfl)
      rw [e1, joined_left]
      exact congrArg (x0 (ix2 s k) * ·) (congrArg x4 (funext fun a => Fin.ext (by match a with | ⟨0, _⟩ => rfl | ⟨1, _⟩ => rfl)))
    · have hk : 64 + k.val < 128 := by have := k.isLt; omega
      show val_main_v0 (F := Ideal) x0 x1 (lidx_main_v1 (ix2 s j) ⟨64 + k.val, hk⟩) * x4 (ridx_main_v1 (ix2 s j) ⟨64 + k.val, hk⟩) = _
      have e1 : lidx_main_v1 (ix2 s j) ⟨64 + k.val, hk⟩ = ix2 s (⟨64 + k.val, hk⟩ : Fin 128) :=
        funext fun a => Fin.ext (by match a with | ⟨0, _⟩ => rfl | ⟨1, _⟩ => rfl)
      rw [e1, joined_right]
      exact congrArg (x1 (ix2 s k) * ·) (congrArg x4 (funext fun a => Fin.ext (by match a with | ⟨0, _⟩ => rfl | ⟨1, _⟩ => rfl)))
  have hb : idx_main_v2 (idx_main_v3 (ix2 s j)) = ix1 j := funext fun a => Fin.ext (by match a with | ⟨0, _⟩ => rfl)
  rw [hsum, hb]
  rfl

/-! ## The logits -/

theorem ref_logit (s : Fin 8192) (a : Fin 2) :
    val_main_v9 (F := Ideal) x0 x1 x4 x5 x6 x7 (ix2 s a)
      = Cert.Spec.logit (fun k => x0 (ix2 s k)) (fun k => x1 (ix2 s k)) (Cert.Spec.upper x4) (Cert.Spec.lower x4) x5 x6 x7 a := by
  rw [val_main_v9_apply, val_main_v6_apply, val_main_v8_apply, val_main_v7_apply]
  have hsum : (∑ k : Fin 128, val_main_v5 (F := Ideal) x0 x1 x4 x5 (lidx_main_v6 (ix2 s a) k) * x6 (ridx_main_v6 (ix2 s a) k))
      = ∑ j : Fin 128, Cert.Spec.hidden (fun k => x0 (ix2 s k)) (fun k => x1 (ix2 s k)) (Cert.Spec.upper x4) (Cert.Spec.lower x4) x5 j * x6 (ix2 j a) := by
    refine Finset.sum_congr rfl fun k _ => ?_
    have e1 : lidx_main_v6 (ix2 s a) k = ix2 s k := funext fun b => Fin.ext (by match b with | ⟨0, _⟩ => rfl | ⟨1, _⟩ => rfl)
    have e2 : ridx_main_v6 (ix2 s a) k = ix2 k a := funext fun b => Fin.ext (by match b with | ⟨0, _⟩ => rfl | ⟨1, _⟩ => rfl)
    rw [e1, e2, ref_hidden]
  have hb : idx_main_v7 (idx_main_v8 (ix2 s a)) = ix1 a := funext fun b => Fin.ext (by match b with | ⟨0, _⟩ => rfl)
  rw [hsum, hb]
  rfl

/-! ## The softmax -/

/-- The reference's row maximum of the logits, capped by `-∞` and spread back over the two lanes, is the shift. -/
theorem ref_shift (s : Fin 8192) (a : Fin 2) :
    val_main_v14 (F := Ideal) x0 x1 x4 x5 x6 x7 (ix2 s a)
      = Cert.Spec.shift (fun k => val_main_v9 (F := Ideal) x0 x1 x4 x5 x6 x7 (ix2 s k)) := by
  rw [val_main_v14_apply, val_main_v13_apply, val_main_v12_apply, val_main_v11_apply, val_main_cst_0_apply]
  have hi : idx_main_v13 (idx_main_v14 (ix2 s a)) = ix1 s := funext fun b => Fin.ext (by match b with | ⟨0, _⟩ => rfl)
  rw [hi]
  unfold val_main_v10 Cert.Spec.shift
  have hfold := Host.reduce_eq_fold_single (FloatOps.maximumf (F := Ideal) (φ := .f32)) (val_main_v9 (F := Ideal) x0 x1 x4 x5 x6 x7)
    (val_main_cst (F := Ideal)) reducesTo_S8192x2_S8192_d1 (by decide) h_S_ (ix1 s)
  rw [hfold]
  show max (Ideal.ofBits .f32 0xFF800000#32) ((Finset.univ : Finset (Fin 2)).fold max (Ideal.ofBits .f32 0xFF800000#32)
      (fun k : Fin 2 => val_main_v9 (F := Ideal) x0 x1 x4 x5 x6 x7 ((show S8192x2.Reduces [1] S8192 by decide).lift (ix1 s) k))) = _
  exact congrArg (max (Ideal.ofBits .f32 0xFF800000#32)) (congrArg ((Finset.univ : Finset (Fin 2)).fold max (Ideal.ofBits .f32 0xFF800000#32))
    (funext fun k => congrArg (val_main_v9 (F := Ideal) x0 x1 x4 x5 x6 x7) (funext fun b => Fin.ext (by match b with | ⟨0, _⟩ => rfl | ⟨1, _⟩ => rfl))))

theorem ref_exp (s : Fin 8192) (a : Fin 2) :
    val_main_v16 (F := Ideal) x0 x1 x4 x5 x6 x7 (ix2 s a)
      = Ideal.exp (val_main_v9 (F := Ideal) x0 x1 x4 x5 x6 x7 (ix2 s a)
          - Cert.Spec.shift (fun k => val_main_v9 (F := Ideal) x0 x1 x4 x5 x6 x7 (ix2 s k))) := by
  rw [val_main_v16_apply, val_main_v15_apply, ref_shift]
  rfl

theorem ref_gate (s : Fin 8192) (a : Fin 2) :
    val_main_v20 (F := Ideal) x0 x1 x4 x5 x6 x7 (ix2 s a)
      = Cert.Spec.gate (fun k => x0 (ix2 s k)) (fun k => x1 (ix2 s k)) (Cert.Spec.upper x4) (Cert.Spec.lower x4) x5 x6 x7 a := by
  rw [val_main_v20_apply, val_main_v19_apply, val_main_v18_apply, val_main_v17_apply, val_main_cst_1_apply, ref_exp]
  have hi : ∀ k : Fin 2, idx_main_v17 (idx_main_v18 (idx_main_v19 (ix2 s a))) k = ix2 s k := fun k =>
    funext fun b => Fin.ext (by match b with | ⟨0, _⟩ => rfl | ⟨1, _⟩ => rfl)
  have hsum : (∑ k : Fin 2, val_main_v16 (F := Ideal) x0 x1 x4 x5 x6 x7 (idx_main_v17 (idx_main_v18 (idx_main_v19 (ix2 s a))) k))
      = ∑ k : Fin 2, Ideal.exp (val_main_v9 (F := Ideal) x0 x1 x4 x5 x6 x7 (ix2 s k)
          - Cert.Spec.shift (fun k' => val_main_v9 (F := Ideal) x0 x1 x4 x5 x6 x7 (ix2 s k'))) :=
    Finset.sum_congr rfl fun k _ => by rw [hi k, ref_exp]
  rw [hsum]
  have hz : (FloatOps.ofBits (F := Ideal) .f32 0x00000000#32 : EReal) = 0 := Ideal.ofBits_zero_f32
  rw [hz, zero_add]
  have hl : (fun k : Fin 2 => val_main_v9 (F := Ideal) x0 x1 x4 x5 x6 x7 (ix2 s k))
      = Cert.Spec.logit (fun k => x0 (ix2 s k)) (fun k => x1 (ix2 s k)) (Cert.Spec.upper x4) (Cert.Spec.lower x4) x5 x6 x7 :=
    funext fun k => ref_logit x0 x1 x4 x5 x6 x7 s k
  unfold Cert.Spec.gate Cert.Spec.softmax2
  rw [← hl]
  rfl

/-! ## The merge -/

theorem ref_result :
    val_main_v31 (F := Ideal) x0 x1 x2 x3 x4 x5 x6 x7 = Cert.Spec.result x0 x1 x2 x3 x4 x5 x6 x7 := by
  funext i
  obtain ⟨r, s, rfl⟩ : ∃ (r s : Fin 8192), i = ix2 r s := ⟨i 0, i 1, eq_ix2 i⟩
  rw [val_main_v31_apply, val_main_v27_apply, val_main_v30_apply, val_main_v26_apply, val_main_v25_apply, val_main_v22_apply,
    val_main_v21_apply, val_main_v29_apply, val_main_v28_apply, val_main_v24_apply, val_main_v23_apply]
  have h0 : idx_main_v21 (idx_main_v22 (idx_main_v25 (idx_main_v26 (ix2 r s)))) = ix2 s (0 : Fin 2) :=
    funext fun b => Fin.ext (by match b with | ⟨0, _⟩ => exact Nat.div_one _ | ⟨1, _⟩ => rfl)
  have h1 : idx_main_v23 (idx_main_v24 (idx_main_v28 (idx_main_v29 (ix2 r s)))) = ix2 s (1 : Fin 2) :=
    funext fun b => Fin.ext (by match b with | ⟨0, _⟩ => exact Nat.div_one _ | ⟨1, _⟩ => rfl)
  rw [h0, h1, ref_gate, ref_gate]
  rfl

end Cert.ReferenceIdeal.RefValue

end
-- ==== Proof.lean ====
/-
  The certificate: a two-kernel program — a gate (a two-layer perceptron with a two-way softmax over each of 8192 items,
  computed in blocks of 1024 items) and a merge (two `[8192, 8192]` adjacency matrices scaled column by column by the gate's
  two weights and added, in blocks of 1024 × 1024) — against the same computation written with array operations.

  On the extended reals both compute `Spec.result` of the eight arguments (Proof/Spec.lean). The kernel program reads its
  first layer's weight matrix as an upper and a lower half and multiplies each embedding array by its half; the reference
  joins the two embedding arrays and multiplies by the whole matrix: a sum over 128 joined columns is the sum over the first
  64 plus the sum over the last 64 (`Spec.sum_join`), which needs no finiteness, so the precondition is not opened.
  The kernel program's side is Proof/KernelValue.lean (over the two regions' output arrays, Proof/GateValue.lean and
  Proof/MergeValue.lean, and what each region finds at its entry, Proof/Boundary.lean); the reference's side is
  Proof/RefValue.lean. The three frame claims are the generated frames and the reference's generated run; the idealization
  rewrote nothing, so the preservation claim is trivial.
-/
import proofs.«121366_j27092653703861_1_alg».proof.Defs
import proofs.«121366_j27092653703861_1_alg».proof.Proof.Gen.Kernel
import proofs.«121366_j27092653703861_1_alg».proof.Proof.Gen.Kernel.Skeleton
import proofs.«121366_j27092653703861_1_alg».proof.Proof.Gen.Kernel.Launch
import proofs.«121366_j27092653703861_1_alg».proof.Proof.Gen.Kernel.Points
import proofs.«121366_j27092653703861_1_alg».proof.Proof.Gen.Kernel.Frame
import proofs.«121366_j27092653703861_1_alg».proof.Proof.Gen.KernelIdeal
import proofs.«121366_j27092653703861_1_alg».proof.Proof.Gen.KernelIdeal.Skeleton
import proofs.«121366_j27092653703861_1_alg».proof.Proof.Gen.KernelIdeal.Launch
import proofs.«121366_j27092653703861_1_alg».proof.Proof.Gen.KernelIdeal.Points
import proofs.«121366_j27092653703861_1_alg».proof.Proof.Gen.KernelIdeal.Frame
import proofs.«121366_j27092653703861_1_alg».proof.Proof.Gen.ReferenceIdeal
import proofs.«121366_j27092653703861_1_alg».proof.Proof.Gen.Pre_finite_inputs
import proofs.«121366_j27092653703861_1_alg».proof.Proof.Gen.ReferenceIdeal.Run
import proofs.«121366_j27092653703861_1_alg».proof.Proof.Gen.ReferenceIdeal.Read
import proofs.«121366_j27092653703861_1_alg».proof.Proof.KernelValue
import proofs.«121366_j27092653703861_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Run from memories that agree on the eight arguments, both programs end with `Spec.result` of those arguments in their
    result buffers. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7⟩ := hagree c
  rw [Cert.ReferenceIdeal.Read.val_main_v31_eq, Cert.ReferenceIdeal.RefValue.ref_result, a0, a1, a2, a3, a4, a5, a6, a7]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
